-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v38_1)) (v1 : (c : Dev Cert.KernelIdeal.nD) → Buf (Elt Ideal) ((c.tc : Thread Cert.KernelIdeal.nD Cert.KernelIdeal.τ).loc Cert.KernelIdeal.main_v38_0)) (v2 : (c : Dev Cert.KernelIdeal.nD) → Buf (Elt Ideal) ((c.tc : Thread Cert.KernelIdeal.nD Cert.KernelIdeal.τ).loc Cert.KernelIdeal.main_v38_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v38_1) = v0 c
          ∧ r.2.mem ((c.tc : Thread Cert.KernelIdeal.nD Cert.KernelIdeal.τ).loc Cert.KernelIdeal.main_v38_0) = v1 c
          ∧ r.2.mem ((c.tc : Thread Cert.KernelIdeal.nD Cert.KernelIdeal.τ).loc Cert.KernelIdeal.main_v38_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v32) = v0 c
          ∧ r.2.mem ((c.tc : Thread Cert.ReferenceIdeal.nD Cert.ReferenceIdeal.τ).loc Cert.ReferenceIdeal.main_v15) = v1 c
          ∧ r.2.mem ((c.tc : Thread Cert.ReferenceIdeal.nD Cert.ReferenceIdeal.τ).loc Cert.ReferenceIdeal.main_v46) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1000000 : Shape := ⟨1, ![1000000]⟩
abbrev S1000000x64 : Shape := ⟨2, ![1000000, 64]⟩
abbrev S200000x1 : Shape := ⟨2, ![200000, 1]⟩
abbrev S200000x64 : Shape := ⟨2, ![200000, 64]⟩
abbrev S64x64 : Shape := ⟨2, ![64, 64]⟩
abbrev S_ : Shape := ⟨0, ![]⟩

class Facts : Prop where
  bcast_S_S1000000x64 : S_.BroadcastsInDim S1000000x64 (![] : Fin 0 → Fin S1000000x64.rank)
  reducesTo_S1000000x64_S_d0_1 : S1000000x64.ReducesTo [0, 1] S_
  h_S_ : 0 < S_.numel
  bcast_S_S200000x1 : S_.BroadcastsInDim S200000x1 (![] : Fin 0 → Fin S200000x1.rank)
  reducesTo_S200000x1_S_d0_1 : S200000x1.ReducesTo [0, 1] S_
  bcast_S_S200000x64 : S_.BroadcastsInDim S200000x64 (![] : Fin 0 → Fin S200000x64.rank)
  reducesTo_S200000x64_S_d0_1 : S200000x64.ReducesTo [0, 1] S_
  bcast_S_S64x64 : S_.BroadcastsInDim S64x64 (![] : Fin 0 → Fin S64x64.rank)
  reducesTo_S64x64_S_d0_1 : S64x64.ReducesTo [0, 1] S_

variable [Facts]

def fn_part1 {F : FTy → Type} [FloatOps F] (main_arg6 : FVec F S64x64 .f32) (main_arg7 : FVec F S200000x64 .f32) (main_arg8 : FVec F S200000x64 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64x64 .f32 := Host.absf main_arg6
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  let main_v24 : FVec F S200000x64 .f32 := Host.absf main_arg7
  let main_cst_8 : FVec F S_ .f32 := constant S_ .f32 0x7F800000#32
  let main_v25 : FVec F S200000x64 .f32 := broadcastInDim S200000x64 ![] bcast_S_S200000x64 main_cst_8
  let main_v26 : IVec S200000x64 1 := cmpf .olt main_v24 main_v25
  let main_c_9 : IVec S_ 1 := constantI S_ 1 1#1
  let main_v27 : IVec S_ 1 := (fun x v => Host.reduce IntOp.andi x v reducesTo_S200000x64_S_d0_1 h_S_) main_v26 main_c_9
  let main_v28 : IVec S_ 1 := andi main_v23 main_v27
  let main_v29 : FVec F S200000x64 .f32 := Host.absf main_arg8
  let main_cst_10 : FVec F S_ .f32 := constant S_ .f32 0x7F800000#32
  let main_v30 : FVec F S200000x64 .f32 := broadcastInDim S200000x64 ![] bcast_S_S200000x64 main_cst_10
  let main_v31 : IVec S200000x64 1 := cmpf .olt main_v29 main_v30
  let main_c_11 : IVec S_ 1 := constantI S_ 1 1#1
  let main_v32 : IVec S_ 1 := (fun x v => Host.reduce IntOp.andi x v reducesTo_S200000x64_S_d0_1 h_S_) main_v31 main_c_11
  let main_v33 : IVec S_ 1 := andi main_v28 main_v32
  main_v33

def fn {F : FTy → Type} [FloatOps F] (main_arg0 : IVec S1000000 32) (main_arg1 : IVec S1000000 32) (main_arg2 : FVec F S1000000x64 .f32) (main_arg3 : FVec F S200000x1 .f32) (main_arg4 : FVec F S200000x64 .f32) (main_arg5 : FVec F S64x64 .f32) (main_arg6 : FVec F S64x64 .f32) (main_arg7 : FVec F S200000x64 .f32) (main_arg8 : FVec F S200000x64 .f32) : IVec S_ 1 :=
  let main_v0 : FVec F S1000000x64 .f32 := Host.absf main_arg2
  let main_cst : FVec F S_ .f32 := constant S_ .f32 0x7F800000#32
  let main_v1 : FVec F S1000000x64 .f32 := broadcastInDim S1000000x64 ![] bcast_S_S1000000x64 main_cst
  let main_v2 : IVec S1000000x64 1 := cmpf .olt main_v0 main_v1
  let main_c : IVec S_ 1 := constantI S_ 1 1#1
  let main_v3 : IVec S_ 1 := (fun x v => Host.reduce IntOp.andi x v reducesTo_S1000000x64_S_d0_1 h_S_) main_v2 main_c
  let main_v4 : FVec F S200000x1 .f32 := Host.absf main_arg3
  let main_cst_0 : FVec F S_ .f32 := constant S_ .f32 0x7F800000#32
  let main_v5 : FVec F S200000x1 .f32 := broadcastInDim S200000x1 ![] bcast_S_S200000x1 main_cst_0
  let main_v6 : IVec S200000x1 1 := cmpf .olt main_v4 main_v5
  let main_c_1 : IVec S_ 1 := constantI S_ 1 1#1
  let main_v7 : IVec S_ 1 := (fun x v => Host.reduce IntOp.andi x v reducesTo_S200000x1_S_d0_1 h_S_) main_v6 main_c_1
  let main_v8 : IVec S_ 1 := andi main_v3 main_v7
  let main_v9 : FVec F S200000x64 .f32 := Host.absf main_arg4
  let main_cst_2 : FVec F S_ .f32 := constant S_ .f32 0x7F800000#32
  let main_v10 : FVec F S200000x64 .f32 := broadcastInDim S200000x64 ![] bcast_S_S200000x64 main_cst_2
  let main_v11 : IVec S200000x64 1 := cmpf .olt main_v9 main_v10
  let main_c_3 : IVec S_ 1 := constantI S_ 1 1#1
  let main_v12 : IVec S_ 1 := (fun x v => Host.reduce IntOp.andi x v reducesTo_S200000x64_S_d0_1 h_S_) main_v11 main_c_3
  let main_v13 : IVec S_ 1 := andi main_v8 main_v12
  let main_v14 : FVec F S64x64 .f32 := Host.absf main_arg5
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg6 main_arg7 main_arg8 main_v13 main_v16
-- ==== Kernel.lean ====
abbrev S1000000 : Shape := ⟨1, ![1000000]⟩
abbrev S1000000x64 : Shape := ⟨2, ![1000000, 64]⟩
abbrev S200000x1 : Shape := ⟨2, ![200000, 1]⟩
abbrev S200000x64 : Shape := ⟨2, ![200000, 64]⟩
abbrev S64x64 : Shape := ⟨2, ![64, 64]⟩
abbrev S_ : Shape := ⟨0, ![]⟩
abbrev S1000000x1 : Shape := ⟨2, ![1000000, 1]⟩
abbrev S1001472x64 : Shape := ⟨2, ![1001472, 64]⟩
abbrev S1001472x1 : Shape := ⟨2, ![1001472, 1]⟩
abbrev S2048x64 : Shape := ⟨2, ![2048, 64]⟩
abbrev S2048x1 : Shape := ⟨2, ![2048, 1]⟩
abbrev S2000x64 : Shape := ⟨2, ![2000, 64]⟩
abbrev S2000x1 : Shape := ⟨2, ![2000, 1]⟩

abbrev nBuf : Space → Nat
  | .hbm => 69
  | .vmem => 30
  | .smem => 0
  | _ => 0

abbrev bufTy : (tb : Table) → Fin (tcTables nBuf tb) → BufTy
  | .hbm, ⟨0, _⟩ => ⟨S1000000, .i32⟩
  | .hbm, ⟨1, _⟩ => ⟨S1000000, .i32⟩
  | .hbm, ⟨2, _⟩ => ⟨S1000000x64, .f32⟩
  | .hbm, ⟨3, _⟩ => ⟨S200000x1, .f32⟩
  | .hbm, ⟨4, _⟩ => ⟨S200000x64, .f32⟩
  | .hbm, ⟨5, _⟩ => ⟨S64x64, .f32⟩
  | .hbm, ⟨6, _⟩ => ⟨S64x64, .f32⟩
  | .hbm, ⟨7, _⟩ => ⟨S200000x64, .f32⟩
  | .hbm, ⟨8, _⟩ => ⟨S200000x64, .f32⟩
  | .hbm, ⟨9, _⟩ => ⟨S_, .i32⟩
  | .hbm, ⟨10, _⟩ => ⟨S1000000, .i32⟩
  | .hbm, ⟨11, _⟩ => ⟨S1000000, .i1⟩
  | .hbm, ⟨12, _⟩ => ⟨S_, .i32⟩
  | .hbm, ⟨13, _⟩ => ⟨S1000000, .i32⟩
  | .hbm, ⟨14, _⟩ => ⟨S1000000, .i32⟩
  | .hbm, ⟨15, _⟩ => ⟨S1000000, .i32⟩
  | .hbm, ⟨16, _⟩ => ⟨S1000000x1, .i32⟩
  | .hbm, ⟨17, _⟩ => ⟨S1000000x1, .f32⟩
  | .hbm, ⟨18, _⟩ => ⟨S_, .i32⟩
  | .hbm, ⟨19, _⟩ => ⟨S1000000, .i32⟩
  | .hbm, ⟨20, _⟩ => ⟨S1000000, .i1⟩
  | .hbm, ⟨21, _⟩ => ⟨S_, .i32⟩
  | .hbm, ⟨22, _⟩ => ⟨S1000000, .i32⟩
  | .hbm, ⟨23, _⟩ => ⟨S1000000, .i32⟩
  | .hbm, ⟨24, _⟩ => ⟨S1000000, .i32⟩
  | .hbm, ⟨25, _⟩ => ⟨S1000000x1, .i32⟩
  | .hbm, ⟨26, _⟩ => ⟨S1000000x64, .f32⟩
  | .hbm, ⟨27, _⟩ => ⟨S_, .i32⟩
  | .hbm, ⟨28, _⟩ => ⟨S1000000, .i32⟩
  | .hbm, ⟨29, _⟩ => ⟨S1000000, .i1⟩
  | .hbm, ⟨30, _⟩ => ⟨S_, .i32⟩
  | .hbm, ⟨31, _⟩ => ⟨S1000000, .i32⟩
  | .hbm, ⟨32, _⟩ => ⟨S1000000, .i32⟩
  | .hbm, ⟨33, _⟩ => ⟨S1000000, .i32⟩
  | .hbm, ⟨34, _⟩ => ⟨S1000000x1, .i32⟩
  | .hbm, ⟨35, _⟩ => ⟨S1000000x64, .f32⟩
  | .hbm, ⟨36, _⟩ => ⟨S_, .i32⟩
  | .hbm, ⟨37, _⟩ => ⟨S_, .f32⟩
  | .hbm, ⟨38, _⟩ => ⟨S1001472x64, .f32⟩
  | .hbm, ⟨39, _⟩ => ⟨S_, .i32⟩
  | .hbm, ⟨40, _⟩ => ⟨S_, .f32⟩
  | .hbm, ⟨41, _⟩ => ⟨S1001472x1, .f32⟩
  | .hbm, ⟨42, _⟩ => ⟨S_, .i32⟩
  | .hbm, ⟨43, _⟩ => ⟨S_, .f32⟩
  | .hbm, ⟨44, _⟩ => ⟨S1001472x64, .f32⟩
  | .hbm, ⟨45, _⟩ => ⟨S_, .i32⟩
  | .hbm, ⟨46, _⟩ => ⟨S_, .f32⟩
  | .hbm, ⟨47, _⟩ => ⟨S1001472x64, .f32⟩
  | .hbm, ⟨48, _⟩ => ⟨S1001472x64, .f32⟩
  | .hbm, ⟨49, _⟩ => ⟨S1001472x64, .f32⟩
  | .hbm, ⟨50, _⟩ => ⟨S1001472x64, .f32⟩
  | .hbm, ⟨51, _⟩ => ⟨S1000000x64, .f32⟩
  | .hbm, ⟨52, _⟩ => ⟨S1000000x64, .f32⟩
  | .hbm, ⟨53, _⟩ => ⟨S1000000x64, .f32⟩
  | .hbm, ⟨54, _⟩ => ⟨S_, .f32⟩
  | .hbm, ⟨55, _⟩ => ⟨S200000x64, .f32⟩
  | .hbm, ⟨56, _⟩ => ⟨S1000000x1, .i32⟩
  | .hbm, ⟨57, _⟩ => ⟨S200000x64, .f32⟩
  | .hbm, ⟨58, _⟩ => ⟨S_, .f32⟩
  | .hbm, ⟨59, _⟩ => ⟨S200000x64, .f32⟩
  | .hbm, ⟨60, _⟩ => ⟨S1000000x1, .i32⟩
  | .hbm, ⟨61, _⟩ => ⟨S200000x64, .f32⟩
  | .hbm, ⟨62, _⟩ => ⟨S_, .f32⟩
  | .hbm, ⟨63, _⟩ => ⟨S200000x64, .f32⟩
  | .hbm, ⟨64, _⟩ => ⟨S1000000x1, .i32⟩
  | .hbm, ⟨65, _⟩ => ⟨S200000x64, .f32⟩
  | .hbm, ⟨66, _⟩ => ⟨S200000x64, .f32⟩
  | .hbm, ⟨67, _⟩ => ⟨S200000x64, .f32⟩
  | .hbm, ⟨68, _⟩ => ⟨S200000x64, .f32⟩
  | .local _ .vmem, ⟨0, _⟩ => ⟨S2048x64, .f32⟩
  | .local _ .vmem, ⟨1, _⟩ => ⟨S2048x64, .f32⟩
  | .local _ .vmem, ⟨2, _⟩ => ⟨S2048x1, .f32⟩
  | .local _ .vmem, ⟨3, _⟩ => ⟨S2048x1, .f32⟩
  | .local _ .vmem, ⟨4, _⟩ => ⟨S2048x64, .f32⟩
  | .local _ .vmem, ⟨5, _⟩ => ⟨S2048x64, .f32⟩
  | .local _ .vmem, ⟨6, _⟩ => ⟨S2048x64, .f32⟩
  | .local _ .vmem, ⟨7, _⟩ => ⟨S2048x64, .f32⟩
  | .local _ .vmem, ⟨8, _⟩ => ⟨S64x64, .f32⟩
  | .local _ .vmem, ⟨9, _⟩ => ⟨S64x64, .f32⟩
  | .local _ .vmem, ⟨10, _⟩ => ⟨S2048x64, .f32⟩
  | .local _ .vmem, ⟨11, _⟩ => ⟨S2048x64, .f32⟩
  | .local _ .vmem, ⟨12, _⟩ => ⟨S2048x64, .f32⟩
  | .local _ .vmem, ⟨13, _⟩ => ⟨S2048x64, .f32⟩
  | .local _ .vmem, ⟨14, _⟩ => ⟨S2048x64, .f32⟩
  | .local _ .vmem, ⟨15, _⟩ => ⟨S2048x64, .f32⟩
  | .local _ .vmem, ⟨16, _⟩ => ⟨S2000x64, .f32⟩
  | .local _ .vmem, ⟨17, _⟩ => ⟨S2000x64, .f32⟩
  | .local _ .vmem, ⟨18, _⟩ => ⟨S2000x64, .f32⟩
  | .local _ .vmem, ⟨19, _⟩ => ⟨S2000x64, .f32⟩
  | .local _ .vmem, ⟨20, _⟩ => ⟨S2000x64, .f32⟩
  | .local _ .vmem, ⟨21, _⟩ => ⟨S2000x64, .f32⟩
  | .local _ .vmem, ⟨22, _⟩ => ⟨S2000x1, .f32⟩
  | .local _ .vmem, ⟨23, _⟩ => ⟨S2000x1, .f32⟩
  | .local _ .vmem, ⟨24, _⟩ => ⟨S2000x64, .f32⟩
  | .local _ .vmem, ⟨25, _⟩ => ⟨S2000x64, .f32⟩
  | .local _ .vmem, ⟨26, _⟩ => ⟨S2000x64, .f32⟩
  | .local _ .vmem, ⟨27, _⟩ => ⟨S2000x64, .f32⟩
  | .local _ .vmem, ⟨28, _⟩ => ⟨S2000x64, .f32⟩
  | .local _ .vmem, ⟨29, _⟩ => ⟨S2000x64, .f32⟩
  | _, _ => ⟨S1000000, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_c : Ref sig .tc := ⟨.hbm, 9, rfl⟩
abbrev main_v0 : Ref sig .tc := ⟨.hbm, 10, rfl⟩
abbrev main_v1 : Ref sig .tc := ⟨.hbm, 11, rfl⟩
abbrev main_c_0 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_c_1 : Ref sig .tc := ⟨.hbm, 18, rfl⟩
abbrev main_v7 : Ref sig .tc := ⟨.hbm, 19, rfl⟩
abbrev main_v8 : Ref sig .tc := ⟨.hbm, 20, rfl⟩
abbrev main_c_2 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_c_3 : Ref sig .tc := ⟨.hbm, 27, rfl⟩
abbrev main_v14 : Ref sig .tc := ⟨.hbm, 28, rfl⟩
abbrev main_v15 : Ref sig .tc := ⟨.hbm, 29, rfl⟩
abbrev main_c_4 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_c_5 : Ref sig .tc := ⟨.hbm, 36, rfl⟩
abbrev main_call0_v0 : Ref sig .tc := ⟨.hbm, 37, rfl⟩
abbrev main_v21 : Ref sig .tc := ⟨.hbm, 38, rfl⟩
abbrev main_c_6 : Ref sig .tc := ⟨.hbm, 39, rfl⟩
abbrev main_call1_v0 : Ref sig .tc := ⟨.hbm, 40, rfl⟩
abbrev main_v22 : Ref sig .tc := ⟨.hbm, 41, rfl⟩
abbrev main_c_7 : Ref sig .tc := ⟨.hbm, 42, rfl⟩
abbrev main_call2_v0 : Ref sig .tc := ⟨.hbm, 43, rfl⟩
abbrev main_v23 : Ref sig .tc := ⟨.hbm, 44, rfl⟩
abbrev main_c_8 : Ref sig .tc := ⟨.hbm, 45, rfl⟩
abbrev main_call3_v0 : Ref sig .tc := ⟨.hbm, 46, rfl⟩
abbrev main_v24 : Ref sig .tc := ⟨.hbm, 47, rfl⟩
abbrev main_v25_0 : Ref sig .tc := ⟨.hbm, 48, rfl⟩
abbrev main_v25_1 : Ref sig .tc := ⟨.hbm, 49, rfl⟩
abbrev main_v25_2 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_cst : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_cst_9 : Ref sig .tc := ⟨.hbm, 58, rfl⟩
abbrev main_v32 : Ref sig .tc := ⟨.hbm, 59, rfl⟩
abbrev main_v33 : Ref sig .tc := ⟨.hbm, 60, rfl⟩
abbrev main_v34 : Ref sig .tc := ⟨.hbm, 61, rfl⟩
abbrev main_cst_10 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_v38_0 : Ref sig .tc := ⟨.hbm, 66, rfl⟩
abbrev main_v38_1 : Ref sig .tc := ⟨.hbm, 67, rfl⟩
abbrev main_v38_2 : Ref sig .tc := ⟨.hbm, 68, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc1_stg0_0 : Ref sig .tc := ⟨.vmem, 16, rfl⟩
abbrev cc1_stg0_1 : Ref sig .tc := ⟨.vmem, 17, rfl⟩
abbrev cc1_stg1_0 : Ref sig .tc := ⟨.vmem, 18, rfl⟩
abbrev cc1_stg1_1 : Ref sig .tc := ⟨.vmem, 19, rfl⟩
abbrev cc1_stg2_0 : Ref sig .tc := ⟨.vmem, 20, rfl⟩
abbrev cc1_stg2_1 : Ref sig .tc := ⟨.vmem, 21, rfl⟩
abbrev cc1_stg3_0 : Ref sig .tc := ⟨.vmem, 22, rfl⟩
abbrev cc1_stg3_1 : Ref sig .tc := ⟨.vmem, 23, rfl⟩
abbrev cc1_stg4_0 : Ref sig .tc := ⟨.vmem, 24, rfl⟩
abbrev cc1_stg4_1 : Ref sig .tc := ⟨.vmem, 25, rfl⟩
abbrev cc1_stg5_0 : Ref sig .tc := ⟨.vmem, 26, rfl⟩
abbrev cc1_stg5_1 : Ref sig .tc := ⟨.vmem, 27, rfl⟩
abbrev cc1_stg6_0 : Ref sig .tc := ⟨.vmem, 28, rfl⟩
abbrev cc1_stg6_1 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc1_sem0_0 : DmaSem sig := 16
abbrev cc1_sem0_1 : DmaSem sig := 17
abbrev cc1_sem1_0 : DmaSem sig := 18
abbrev cc1_sem1_1 : DmaSem sig := 19
abbrev cc1_sem2_0 : DmaSem sig := 20
abbrev cc1_sem2_1 : DmaSem sig := 21
abbrev cc1_sem3_0 : DmaSem sig := 22
abbrev cc1_sem3_1 : DmaSem sig := 23
abbrev cc1_sem4_0 : DmaSem sig := 24
abbrev cc1_sem4_1 : DmaSem sig := 25
abbrev cc1_sem5_0 : DmaSem sig := 26
abbrev cc1_sem5_1 : DmaSem sig := 27
abbrev cc1_sem6_0 : DmaSem sig := 28
abbrev cc1_sem6_1 : DmaSem sig := 29

abbrev nD : Nat := 1
abbrev τ : Topo := Topo.v7x

variable {F : FTy → Type} [FloatOps F]

abbrev grid0 : Pipeline.Grid := ⟨1, ![489], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2048x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S64x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S64x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S2048x64 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S2048x64 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S2048x64 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev grid1 : Pipeline.Grid := ⟨1, ![100], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S2000x1 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S2000x64 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S2000x64 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S2000x64 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

class Facts₀ : Prop where
  bcast_S_S1000000 : S_.BroadcastsInDim S1000000 (![] : Fin 0 → Fin S1000000.rank)
  bcast_S1000000_S1000000x1_0 : S1000000.BroadcastsInDim S1000000x1 (![0] : Fin 1 → Fin S1000000x1.rank)
  pads_S1000000x64_S1001472x64_014720_000 : S1000000x64.Pads (![0, 0] : Fin 2 → Nat) ![1472, 0] ![0, 0] S1001472x64
  h_S_ : 0 < S_.numel
  pads_S1000000x1_S1001472x1_014720_000 : S1000000x1.Pads (![0, 0] : Fin 2 → Nat) ![1472, 0] ![0, 0] S1001472x1
  inb_S2048x64_S2048x64_0_0 : ∀ a, (![0, 0] : Fin 2 → Nat) a + S2048x64.size a ≤ S2048x64.size a
  h_S2048x64 : 0 < S2048x64.numel
  shapeCasts_S2048x64_S2048x64 : S2048x64.ShapeCasts S2048x64
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  transposes_S64x64_p1_0_S64x64 : S64x64.Transposes [1, 0] S64x64
  inb_S2048x1_S2048x1_0_0 : ∀ a, (![0, 0] : Fin 2 → Nat) a + S2048x1.size a ≤ S2048x1.size a
  h_S2048x1 : 0 < S2048x1.numel
  shapeCasts_S2048x1_S2048x1 : S2048x1.ShapeCasts S2048x1
  broadcasts_S2048x1_S2048x64 : S2048x1.Broadcasts S2048x64
  slices_S1001472x64_S1000000x64_0_0 : S1001472x64.Slices ![0, 0] S1000000x64
  bcast_S_S200000x64 : S_.BroadcastsInDim S200000x64 (![] : Fin 0 → Fin S200000x64.rank)
  inb_S2000x1_S2000x1_0_0 : ∀ a, (![0, 0] : Fin 2 → Nat) a + S2000x1.size a ≤ S2000x1.size a
  h_S2000x1 : 0 < S2000x1.numel
  inb_S2000x64_S2000x64_0_0 : ∀ a, (![0, 0] : Fin 2 → Nat) a + S2000x64.size a ≤ S2000x64.size a
  h_S2000x64 : 0 < S2000x64.numel
  shapeCasts_S2000x64_S2000x64 : S2000x64.ShapeCasts S2000x64
  broadcasts_S2000x1_S2000x64 : S2000x1.Broadcasts S2000x64
  gather_S200000x1_S1000000x1_S1000000x1_1_0_n_n_0_1_11_wf : GatherDims.WF S200000x1 S1000000x1 S1000000x1 [1] [0] [] [0] [] 1 ![1, 1]
  gather_S200000x64_S1000000x1_S1000000x64_1_0_n_n_0_1_164_wf : GatherDims.WF S200000x64 S1000000x1 S1000000x64 [1] [0] [] [0] [] 1 ![1, 64]
  dot_S2048x64_S64x64_S2048x64_1_0_0_1_n_n_wf : DotDims.WF S2048x64 S64x64 S2048x64 [1] [0] [0] [1] [] []
  scatter_S200000x64_S1000000x1_S1000000x64_1_0_0_1_wf : ScatterDims.WF S200000x64 S1000000x1 S1000000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x64.size a ≤ S1001472x64.size a
  hwx0_0 : ∀ i : grid0.Coords, EltTy.bits .f32 = 32 ∨ (Rect.block (s := S1001472x64) S2048x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x1.size a ≤ S1001472x1.size a
  hwx0_1 : ∀ i : grid0.Coords, EltTy.bits .f32 = 32 ∨ (Rect.block (s := S1001472x1) S2048x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x64.size a ≤ S1001472x64.size a
  hwx0_2 : ∀ i : grid0.Coords, EltTy.bits .f32 = 32 ∨ (Rect.block (s := S1001472x64) S2048x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2048x64.size a ≤ S1001472x64.size a
  hwx0_3 : ∀ i : grid0.Coords, EltTy.bits .f32 = 32 ∨ (Rect.block (s := S1001472x64) S2048x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x64.size a ≤ S64x64.size a
  hwx0_4 : ∀ i : grid0.Coords, EltTy.bits .f32 = 32 ∨ (Rect.block (s := S64x64) S64x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S64x64.size a ≤ S64x64.size a
  hwx0_5 : ∀ i : grid0.Coords, EltTy.bits .f32 = 32 ∨ (Rect.block (s := S64x64) S64x64.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S2048x64.size a ≤ S1001472x64.size a
  hwx0_6 : ∀ i : grid0.Coords, EltTy.bits .f32 = 32 ∨ (Rect.block (s := S1001472x64) S2048x64.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S2048x64.size a ≤ S1001472x64.size a
  hwx0_7 : ∀ i : grid0.Coords, EltTy.bits .f32 = 32 ∨ (Rect.block (s := S1001472x64) S2048x64.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S2048x64.size a ≤ S1001472x64.size a
  hwx0_8 : ∀ i : grid0.Coords, EltTy.bits .f32 = 32 ∨ (Rect.block (s := S1001472x64) S2048x64.size (cc0_transform_8 i) (hinb0_8 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x64.size a ≤ S200000x64.size a
  hwx1_0 : ∀ i : grid1.Coords, EltTy.bits .f32 = 32 ∨ (Rect.block (s := S200000x64) S2000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x64.size a ≤ S200000x64.size a
  hwx1_1 : ∀ i : grid1.Coords, EltTy.bits .f32 = 32 ∨ (Rect.block (s := S200000x64) S2000x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x64.size a ≤ S200000x64.size a
  hwx1_2 : ∀ i : grid1.Coords, EltTy.bits .f32 = 32 ∨ (Rect.block (s := S200000x64) S2000x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2000x1.size a ≤ S200000x1.size a
  hwx1_3 : ∀ i : grid1.Coords, EltTy.bits .f32 = 32 ∨ (Rect.block (s := S200000x1) S2000x1.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S2000x64.size a ≤ S200000x64.size a
  hwx1_4 : ∀ i : grid1.Coords, EltTy.bits .f32 = 32 ∨ (Rect.block (s := S200000x64) S2000x64.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S2000x64.size a ≤ S200000x64.size a
  hwx1_5 : ∀ i : grid1.Coords, EltTy.bits .f32 = 32 ∨ (Rect.block (s := S200000x64) S2000x64.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S2000x64.size a ≤ S200000x64.size a
  hwx1_6 : ∀ i : grid1.Coords, EltTy.bits .f32 = 32 ∨ (Rect.block (s := S200000x64) S2000x64.size (cc1_transform_6 i) (hinb1_6 i)).WholeWords (EltTy.packing .f32)

variable [Facts₀]

def gather_S200000x1_S1000000x1_S1000000x1_1_0_n_n_0_1_11 : GatherDims S200000x1 S1000000x1 S1000000x1 where
  offsetDims := [1]
  collapsedSliceDims := [0]
  operandBatchingDims := []
  startIndicesBatchingDims := []
  startIndexMap := [0]
  indexVectorDim := 1
  sliceSizes := ![1, 1]
  wf := gather_S200000x1_S1000000x1_S1000000x1_1_0_n_n_0_1_11_wf
def gather_S200000x64_S1000000x1_S1000000x64_1_0_n_n_0_1_164 : GatherDims S200000x64 S1000000x1 S1000000x64 where
  offsetDims := [1]
  collapsedSliceDims := [0]
  operandBatchingDims := []
  startIndicesBatchingDims := []
  startIndexMap := [0]
  indexVectorDim := 1
  sliceSizes := ![1, 64]
  wf := gather_S200000x64_S1000000x1_S1000000x64_1_0_n_n_0_1_164_wf
def dot_S2048x64_S64x64_S2048x64_1_0_0_1_n_n : DotDims S2048x64 S64x64 S2048x64 where
  lhsContracting := [1]
  rhsContracting := [0]
  lhsNonContracting := [0]
  rhsNonContracting := [1]
  lhsBatch := []
  rhsBatch := []
  wf := dot_S2048x64_S64x64_S2048x64_1_0_0_1_n_n_wf
def scatter_S200000x64_S1000000x1_S1000000x64_1_0_0_1 : ScatterDims S200000x64 S1000000x1 S1000000x64 where
  updateWindowDims := [1]
  insertedWindowDims := [0]
  scatterDimsToOperandDims := [0]
  indexVectorDim := 1
  wf := scatter_S200000x64_S1000000x1_S1000000x64_1_0_0_1_wf

abbrev win0_0 : Pipeline.Window sig grid0 :=
  Pipeline.Window.ofSpec (Memref.whole main_v21) S2048x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v22) S2048x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v23) S2048x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v24) S2048x64.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg5) S64x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg6) S64x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v25_0) S2048x64.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v25_1) S2048x64.size cc0_transform_7 reads0_7 true false 2 stage0_7 sem0_7
    hrank0 hreads0_7 hinb0_7 nbuf0_7 (Memref.isWhole_whole _) hwx0_7 hstage0_7

abbrev win0_8 : Pipeline.Window sig grid0 :=
  Pipeline.Window.ofSpec (Memref.whole main_v25_2) S2048x64.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

abbrev win1_0 : Pipeline.Window sig grid1 :=
  Pipeline.Window.ofSpec (Memref.whole main_v31) S2000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v34) S2000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v37) S2000x64.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg3) S2000x1.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v38_0) S2000x64.size cc1_transform_4 reads1_4 true false 2 stage1_4 sem1_4
    hrank1 hreads1_4 hinb1_4 nbuf1_4 (Memref.isWhole_whole _) hwx1_4 hstage1_4

abbrev win1_5 : Pipeline.Window sig grid1 :=
  Pipeline.Window.ofSpec (Memref.whole main_v38_1) S2000x64.size cc1_transform_5 reads1_5 true false 2 stage1_5 sem1_5
    hrank1 hreads1_5 hinb1_5 nbuf1_5 (Memref.isWhole_whole _) hwx1_5 hstage1_5

abbrev win1_6 : Pipeline.Window sig grid1 :=
  Pipeline.Window.ofSpec (Memref.whole main_v38_2) S2000x64.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

class Facts : Prop extends Facts₀ where

variable [Facts]
-- ==== ReferenceIdeal.lean ====
abbrev S1000000 : Shape := ⟨1, ![1000000]⟩
abbrev S1000000x64 : Shape := ⟨2, ![1000000, 64]⟩
abbrev S200000x1 : Shape := ⟨2, ![200000, 1]⟩
abbrev S200000x64 : Shape := ⟨2, ![200000, 64]⟩
abbrev S64x64 : Shape := ⟨2, ![64, 64]⟩
abbrev S_ : Shape := ⟨0, ![]⟩
abbrev S1000000x1 : Shape := ⟨2, ![1000000, 1]⟩

abbrev nBuf : Space → Nat
  | .hbm => 65
  | .vmem => 0
  | .smem => 0
  | _ => 0

abbrev bufTy : (tb : Table) → Fin (tcTables nBuf tb) → BufTy
  | .hbm, ⟨0, _⟩ => ⟨S1000000, .i32⟩
  | .hbm, ⟨1, _⟩ => ⟨S1000000, .i32⟩
  | .hbm, ⟨2, _⟩ => ⟨S1000000x64, .f32⟩
  | .hbm, ⟨3, _⟩ => ⟨S200000x1, .f32⟩
  | .hbm, ⟨4, _⟩ => ⟨S200000x64, .f32⟩
  | .hbm, ⟨5, _⟩ => ⟨S64x64, .f32⟩
  | .hbm, ⟨6, _⟩ => ⟨S64x64, .f32⟩
  | .hbm, ⟨7, _⟩ => ⟨S200000x64, .f32⟩
  | .hbm, ⟨8, _⟩ => ⟨S200000x64, .f32⟩
  | .hbm, ⟨9, _⟩ => ⟨S_, .i32⟩
  | .hbm, ⟨10, _⟩ => ⟨S1000000, .i32⟩
  | .hbm, ⟨11, _⟩ => ⟨S1000000, .i1⟩
  | .hbm, ⟨12, _⟩ => ⟨S_, .i32⟩
  | .hbm, ⟨13, _⟩ => ⟨S1000000, .i32⟩
  | .hbm, ⟨14, _⟩ => ⟨S1000000, .i32⟩
  | .hbm, ⟨15, _⟩ => ⟨S1000000, .i32⟩
  | .hbm, ⟨16, _⟩ => ⟨S1000000x1, .i32⟩
  | .hbm, ⟨17, _⟩ => ⟨S1000000x1, .f32⟩
  | .hbm, ⟨18, _⟩ => ⟨S64x64, .f32⟩
  | .hbm, ⟨19, _⟩ => ⟨S1000000x64, .f32⟩
  | .hbm, ⟨20, _⟩ => ⟨S1000000x64, .f32⟩
  | .hbm, ⟨21, _⟩ => ⟨S1000000x64, .f32⟩
  | .hbm, ⟨22, _⟩ => ⟨S_, .f32⟩
  | .hbm, ⟨23, _⟩ => ⟨S200000x64, .f32⟩
  | .hbm, ⟨24, _⟩ => ⟨S1000000x1, .i32⟩
  | .hbm, ⟨25, _⟩ => ⟨S200000x64, .f32⟩
  | .hbm, ⟨26, _⟩ => ⟨S200000x64, .f32⟩
  | .hbm, ⟨27, _⟩ => ⟨S200000x64, .f32⟩
  | .hbm, ⟨28, _⟩ => ⟨S64x64, .f32⟩
  | .hbm, ⟨29, _⟩ => ⟨S1000000x64, .f32⟩
  | .hbm, ⟨30, _⟩ => ⟨S_, .i32⟩
  | .hbm, ⟨31, _⟩ => ⟨S1000000, .i32⟩
  | .hbm, ⟨32, _⟩ => ⟨S1000000, .i1⟩
  | .hbm, ⟨33, _⟩ => ⟨S_, .i32⟩
  | .hbm, ⟨34, _⟩ => ⟨S1000000, .i32⟩
  | .hbm, ⟨35, _⟩ => ⟨S1000000, .i32⟩
  | .hbm, ⟨36, _⟩ => ⟨S1000000, .i32⟩
  | .hbm, ⟨37, _⟩ => ⟨S1000000x1, .i32⟩
  | .hbm, ⟨38, _⟩ => ⟨S1000000x64, .f32⟩
  | .hbm, ⟨39, _⟩ => ⟨S1000000x64, .f32⟩
  | .hbm, ⟨40, _⟩ => ⟨S1000000x64, .f32⟩
  | .hbm, ⟨41, _⟩ => ⟨S1000000x64, .f32⟩
  | .hbm, ⟨42, _⟩ => ⟨S_, .f32⟩
  | .hbm, ⟨43, _⟩ => ⟨S200000x64, .f32⟩
  | .hbm, ⟨44, _⟩ => ⟨S1000000x1, .i32⟩
  | .hbm, ⟨45, _⟩ => ⟨S200000x64, .f32⟩
  | .hbm, ⟨46, _⟩ => ⟨S200000x64, .f32⟩
  | .hbm, ⟨47, _⟩ => ⟨S200000x64, .f32⟩
  | .hbm, ⟨48, _⟩ => ⟨S_, .i32⟩
  | .hbm, ⟨49, _⟩ => ⟨S1000000, .i32⟩
  | .hbm, ⟨50, _⟩ => ⟨S1000000, .i1⟩
  | .hbm, ⟨51, _⟩ => ⟨S_, .i32⟩
  | .hbm, ⟨52, _⟩ => ⟨S1000000, .i32⟩
  | .hbm, ⟨53, _⟩ => ⟨S1000000, .i32⟩
  | .hbm, ⟨54, _⟩ => ⟨S1000000, .i32⟩
  | .hbm, ⟨55, _⟩ => ⟨S1000000x1, .i32⟩
  | .hbm, ⟨56, _⟩ => ⟨S1000000x64, .f32⟩
  | .hbm, ⟨57, _⟩ => ⟨S1000000x64, .f32⟩
  | .hbm, ⟨58, _⟩ => ⟨S1000000x64, .f32⟩
  | .hbm, ⟨59, _⟩ => ⟨S_, .f32⟩
  | .hbm, ⟨60, _⟩ => ⟨S200000x64, .f32⟩
  | .hbm, ⟨61, _⟩ => ⟨S1000000x1, .i32⟩
  | .hbm, ⟨62, _⟩ => ⟨S200000x64, .f32⟩
  | .hbm, ⟨63, _⟩ => ⟨S200000x64, .f32⟩
  | .hbm, ⟨64, _⟩ => ⟨S200000x64, .f32⟩
  | _, _ => ⟨S1000000, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_c : Ref sig .tc := ⟨.hbm, 9, rfl⟩
abbrev main_v0 : Ref sig .tc := ⟨.hbm, 10, rfl⟩
abbrev main_v1 : Ref sig .tc := ⟨.hbm, 11, rfl⟩
abbrev main_c_0 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_c_1 : Ref sig .tc := ⟨.hbm, 30, rfl⟩
abbrev main_v18 : Ref sig .tc := ⟨.hbm, 31, rfl⟩
abbrev main_v19 : Ref sig .tc := ⟨.hbm, 32, rfl⟩
abbrev main_c_2 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_cst_3 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_c_4 : Ref sig .tc := ⟨.hbm, 48, rfl⟩
abbrev main_v33 : Ref sig .tc := ⟨.hbm, 49, rfl⟩
abbrev main_v34 : Ref sig .tc := ⟨.hbm, 50, rfl⟩
abbrev main_c_5 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_cst_6 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩

abbrev nD : Nat := 1
abbrev τ : Topo := Topo.v7x

variable {F : FTy → Type} [FloatOps F]

class Facts₀ : Prop where
  bcast_S_S1000000 : S_.BroadcastsInDim S1000000 (![] : Fin 0 → Fin S1000000.rank)
  bcast_S1000000_S1000000x1_0 : S1000000.BroadcastsInDim S1000000x1 (![0] : Fin 1 → Fin S1000000x1.rank)
  transposes_S64x64_S64x64_1_0 : S64x64.Transposes [1, 0] S64x64
  bcast_S1000000x1_S1000000x64_0_1 : S1000000x1.BroadcastsInDim S1000000x64 (![0, 1] : Fin 2 → Fin S1000000x64.rank)
  bcast_S_S200000x64 : S_.BroadcastsInDim S200000x64 (![] : Fin 0 → Fin S200000x64.rank)
  bcast_S200000x1_S200000x64_0_1 : S200000x1.BroadcastsInDim S200000x64 (![0, 1] : Fin 2 → Fin S200000x64.rank)
  gather_S200000x1_S1000000x1_S1000000x1_1_0_n_n_0_1_11_wf : GatherDims.WF S200000x1 S1000000x1 S1000000x1 [1] [0] [] [0] [] 1 ![1, 1]
  dot_S1000000x64_S64x64_S1000000x64_1_0_0_1_n_n_wf : DotDims.WF S1000000x64 S64x64 S1000000x64 [1] [0] [0] [1] [] []
  scatter_S200000x64_S1000000x1_S1000000x64_1_0_0_1_wf : ScatterDims.WF S200000x64 S1000000x1 S1000000x64 [1] [0] [0] 1
  gather_S200000x64_S1000000x1_S1000000x64_1_0_n_n_0_1_164_wf : GatherDims.WF S200000x64 S1000000x1 S1000000x64 [1] [0] [] [0] [] 1 ![1, 64]

variable [Facts₀]

def gather_S200000x1_S1000000x1_S1000000x1_1_0_n_n_0_1_11 : GatherDims S200000x1 S1000000x1 S1000000x1 where
  offsetDims := [1]
  collapsedSliceDims := [0]
  operandBatchingDims := []
  startIndicesBatchingDims := []
  startIndexMap := [0]
  indexVectorDim := 1
  sliceSizes := ![1, 1]
  wf := gather_S200000x1_S1000000x1_S1000000x1_1_0_n_n_0_1_11_wf
def dot_S1000000x64_S64x64_S1000000x64_1_0_0_1_n_n : DotDims S1000000x64 S64x64 S1000000x64 where
  lhsContracting := [1]
  rhsContracting := [0]
  lhsNonContracting := [0]
  rhsNonContracting := [1]
  lhsBatch := []
  rhsBatch := []
  wf := dot_S1000000x64_S64x64_S1000000x64_1_0_0_1_n_n_wf
def scatter_S200000x64_S1000000x1_S1000000x64_1_0_0_1 : ScatterDims S200000x64 S1000000x1 S1000000x64 where
  updateWindowDims := [1]
  insertedWindowDims := [0]
  scatterDimsToOperandDims := [0]
  indexVectorDim := 1
  wf := scatter_S200000x64_S1000000x1_S1000000x64_1_0_0_1_wf
def gather_S200000x64_S1000000x1_S1000000x64_1_0_n_n_0_1_164 : GatherDims S200000x64 S1000000x1 S1000000x64 where
  offsetDims := [1]
  collapsedSliceDims := [0]
  operandBatchingDims := []
  startIndicesBatchingDims := []
  startIndexMap := [0]
  indexVectorDim := 1
  sliceSizes := ![1, 64]
  wf := gather_S200000x64_S1000000x1_S1000000x64_1_0_n_n_0_1_164_wf

class Facts : Prop extends Facts₀ where

variable [Facts]
-- ==== Proof.HostTerms.lean ====
/-
  The host operations around the two kernel regions, as named functions of whole arrays: the index column jnp makes of the source
  indices (negative indices wrapped by the node count), the gathers of coefficient and embedding rows through it, the zero
  padding of the edge axis to a whole number of 2048-row blocks and the slice that undoes it, and the sum of edge rows into
  the rows their destination indices name.
-/
import proofs.«157525_j69131793596496_1_alg».proof.KernelIdeal
import proofs.«157525_j69131793596496_1_alg».proof.Proof.Gen.KernelIdeal
import Idealize.ShloMosaic.PureOps.Ideal

noncomputable section

namespace Cert.KernelIdeal.HostTerms

open Idealize.ShloMosaic
open Cert.KernelIdeal Cert.KernelIdeal.Facts₀ Cert.KernelIdeal.Facts

/-- The [E, 1] column of start indices: each source index, plus the node count where it is negative. -/
def idxCol (s : (⟨S1000000, .i32⟩ : BufTy).Contents (Elt Ideal)) : (⟨S1000000x1, .i32⟩ : BufTy).Contents (Elt Ideal) :=
  broadcastInDim S1000000x1 ![0] bcast_S1000000_S1000000x1_0
    (select (cmpi .slt s (broadcastInDim S1000000 ![] bcast_S_S1000000 (constantI S_ 32 0#32)))
      (addi s (broadcastInDim S1000000 ![] bcast_S_S1000000 (constantI S_ 32 200000#32))) s)

/-- The coefficient of each edge's source node, an [E, 1] column. -/
def srcCoef (ci : (⟨S200000x1, .f32⟩ : BufTy).Contents (Elt Ideal)) (s : (⟨S1000000, .i32⟩ : BufTy).Contents (Elt Ideal)) :
    (⟨S1000000x1, .f32⟩ : BufTy).Contents (Elt Ideal) :=
  Host.gather gather_S200000x1_S1000000x1_S1000000x1_1_0_n_n_0_1_11 ci (idxCol s)

/-- The embedding row of each edge's source node, [E, 64]. -/
def srcRows (f : (⟨S200000x64, .f32⟩ : BufTy).Contents (Elt Ideal)) (s : (⟨S1000000, .i32⟩ : BufTy).Contents (Elt Ideal)) :
    (⟨S1000000x64, .f32⟩ : BufTy).Contents (Elt Ideal) :=
  Host.gather gather_S200000x64_S1000000x1_S1000000x64_1_0_n_n_0_1_164 f (idxCol s)

/-- The padding value: the integer 0 converted to a float. -/
def padVal : (⟨S_, .f32⟩ : BufTy).Contents (Elt Ideal) := sitofp (F := Ideal) .f32 (constantI S_ 32 0#32)

/-- An [E, 64] array padded with 1472 more rows. -/
def padRows (x : (⟨S1000000x64, .f32⟩ : BufTy).Contents (Elt Ideal)) : (⟨S1001472x64, .f32⟩ : BufTy).Contents (Elt Ideal) :=
  pad S1001472x64 ![0, 0] ![1472, 0] ![0, 0] x padVal pads_S1000000x64_S1001472x64_014720_000 h_S_

/-- An [E, 1] column padded with 1472 more rows. -/
def padCol (x : (⟨S1000000x1, .f32⟩ : BufTy).Contents (Elt Ideal)) : (⟨S1001472x1, .f32⟩ : BufTy).Contents (Elt Ideal) :=
  pad S1001472x1 ![0, 0] ![1472, 0] ![0, 0] x padVal pads_S1000000x1_S1001472x1_014720_000 h_S_

/-- The first E rows of a padded array. -/
def firstRows (y : (⟨S1001472x64, .f32⟩ : BufTy).Contents (Elt Ideal)) : (⟨S1000000x64, .f32⟩ : BufTy).Contents (Elt Ideal) :=
  extractStridedSlice S1000000x64 ![0, 0] y slices_S1001472x64_S1000000x64_0_0

/-- The sum of the edge rows `u` into the node rows their destination indices name, from zero. -/
def segSum (dst : (⟨S1000000, .i32⟩ : BufTy).Contents (Elt Ideal)) (u : (⟨S1000000x64, .f32⟩ : BufTy).Contents (Elt Ideal)) :
    (⟨S200000x64, .f32⟩ : BufTy).Contents (Elt Ideal) :=
  Host.scatterAdd (F := Ideal) scatter_S200000x64_S1000000x1_S1000000x64_1_0_0_1
    (broadcastInDim S200000x64 ![] bcast_S_S200000x64 (constant (F := Ideal) S_ .f32 0x00000000#32))
    (broadcastInDim S1000000x1 ![0] bcast_S1000000_S1000000x1_0 dst) u

end Cert.KernelIdeal.HostTerms

end
-- ==== Proof.LibColumn.lean ====
/-
  A column kept beside a matrix (what `keepdims=True` leaves): a vector `[a]` cast to the column `[a, 1]`, and a column
  `[a, 1]` broadcast over the `b` lanes of `[a, b]`, each read at an index given by its coordinates; and the source index a
  reduction over the lanes of an `[a, b]` array folds over, by its coordinates.
-/
import Idealize.ShloMosaic.Lib.Pipeline.Value
import Idealize.ShloMosaic.Lib.ValueIdx
import Idealize.ShloMosaic.PureOps.Reduce

namespace Idealize.ShloMosaic.ValueIdx

open Idealize.ShloMosaic

variable {α : Type}

/-- An `[a]` array cast to the column `[a, 1]` reads, at `(p, u)`, the operand at `p`, whatever the unit coordinate `u`. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- Over the row `p` of an `[a, b]` array, the source index a reduction along the lanes visits at lane `k` is `(p, k)`. -/
theorem lift_lanes_ix1 {a b : ℕ} (h : (⟨2, ![a, b]⟩ : Shape).Reduces [1] ⟨1, ![a]⟩) (p : Fin a) (k : Fin b) :
    h.lift (ix1 p) k = ix2 p k :=
  funext fun c => Fin.ext (by match c with | ⟨0, _⟩ => rfl | ⟨1, _⟩ => rfl)

end Idealize.ShloMosaic.ValueIdx
-- ==== Proof.LibDotRowsCols.lean ====
/-
  A product of an array of rows with an array of columns, read at one entry.

  For dimension numbers that contract the left operand's axis 1 with the right operand's axis 0, keep the left
  operand's axis 0 and the right operand's axis 1, and batch nothing — the plain product  l · w  of an [n × K] array
  with a [K × c] array — the operand indices at result entry (r, v) and contraction position q are (r, q) and (q, v).
  So both the accumulate-into-zero `tpu.matmul` and the host's `dot_general` are, at the ideal values, the entry's
  plain sum  ∑ q < K, l (r, q) · w (q, v)  over the shared axis: the same extended real whatever the number of rows of
  the left operand. This identifies a product computed a block of the left operand's rows at a time with the whole
  product.
-/
import Idealize.ShloMosaic.PureOps.Ideal.Laws
import Idealize.ShloMosaic.Lib.ValueIdx

noncomputable section

open scoped BigOperators

namespace Cert.Lib.DotRowsCols

open Idealize.ShloMosaic Idealize.ShloMosaic.ValueIdx

variable {n K c : Nat}

/-- Dimension numbers of a rows-by-columns product [n, K] × [K, c] → [n, c]: contract left axis 1 with right axis 0,
    result rows from the left operand's rows, result columns from the right operand's columns, no batch axis. -/
structure RowsCols (d : DotDims ⟨2, ![n, K]⟩ ⟨2, ![K, c]⟩ ⟨2, ![n, c]⟩) : Prop where
  lc : d.lhsContracting = [1]
  rc : d.rhsContracting = [0]
  ln : d.lhsNonContracting = [0]
  rn : d.rhsNonContracting = [1]
  lb : d.lhsBatch = []
  rb : d.rhsBatch = []

variable {d : DotDims ⟨2, ![n, K]⟩ ⟨2, ![K, c]⟩ ⟨2, ![n, c]⟩}

/-- Reading a multi-index at two equal positions gives the same coordinate. -/
private theorem val_congr {s : Shape} (j : s.Idx) (p q : Nat) (hp : p < s.rank) (hq : q < s.rank) (h : p = q) :
    (j ⟨p, hp⟩).val = (j ⟨q, hq⟩).val := by subst h; rfl

/-- One axis is contracted. -/
theorem RowsCols.rank_contr (h : RowsCols d) : d.contr.rank = 1 := by rw [d.rank_contr, h.lc]; rfl

/-- The contracted axis has the shared length K. -/
theorem RowsCols.size_contr (h : RowsCols d) : d.contr.size ⟨0, by rw [h.rank_contr]; exact Nat.one_pos⟩ = K := by
  have := d.size_contr 0 (by rw [h.lc]; exact Nat.one_pos)
  rw [this]; simp only [h.lc]; rfl

/-- The left operand's row is the result's row. -/
theorem RowsCols.lhs_row (h : RowsCols d) (j : (⟨2, ![n, c]⟩ : Shape).Idx) (k : d.contr.Idx) :
    (d.lhsIdx j k 0).val = (j 0).val := by
  unfold DotDims.lhsIdx
  rw [dif_neg (by rw [h.lb]; exact List.not_mem_nil), dif_pos (by rw [h.ln]; exact List.mem_singleton.mpr rfl)]
  simp only [Fin.val_cast]
  exact val_congr j _ _ _ _ (by simp [h.lb, h.ln])

/-- The left operand's column is the contraction position. -/
theorem RowsCols.lhs_col (h : RowsCols d) (j : (⟨2, ![n, c]⟩ : Shape).Idx) (k : d.contr.Idx) :
    (d.lhsIdx j k 1).val = (k ⟨0, by rw [h.rank_contr]; exact Nat.one_pos⟩).val :=
  d.lhsIdx_val_of_single h.lc j k

/-- The right operand's row is the contraction position. -/
theorem RowsCols.rhs_row (h : RowsCols d) (j : (⟨2, ![n, c]⟩ : Shape).Idx) (k : d.contr.Idx) :
    (d.rhsIdx j k 0).val = (k ⟨0, by rw [h.rank_contr]; exact Nat.one_pos⟩).val :=
  d.rhsIdx_val_of_single h.rc j k

/-- The right operand's column is the result's column: its axis 1 is kept, and comes after the left operand's one
    kept axis among the result's axes. -/
theorem RowsCols.rhs_col (h : RowsCols d) (j : (⟨2, ![n, c]⟩ : Shape).Idx) (k : d.contr.Idx) :
    (d.rhsIdx j k 1).val = (j 1).val := by
  unfold DotDims.rhsIdx
  rw [dif_neg (by rw [h.rb]; exact List.not_mem_nil), dif_pos (by rw [h.rn]; exact List.mem_singleton.mpr rfl)]
  simp only [Fin.val_cast]
  exact val_congr j _ _ _ _ (by simp [h.lb, h.ln, h.rn])

/-- The contraction's sum, re-indexed by the shared axis: ∑ q < K, l (r, q) · w (q, v). -/
theorem RowsCols.sum_eq (h : RowsCols d) (l : (⟨2, ![n, K]⟩ : Shape).Idx → EReal) (w : (⟨2, ![K, c]⟩ : Shape).Idx → EReal)
    (j : (⟨2, ![n, c]⟩ : Shape).Idx) :
    ∑ k : d.contr.Idx, l (d.lhsIdx j k) * w (d.rhsIdx j k) = ∑ q : Fin K, l (ix2 (j 0) q) * w (ix2 q (j 1)) := by
  -- the one contracted axis, of length K, is indexed by Fin K
  rw [← Equiv.sum_comp (contrEquiv1 d K h.rank_contr h.size_contr).symm]
  refine Finset.sum_congr rfl fun q _ => ?_
  have hk := contrEquiv1_symm_val d K h.rank_contr h.size_contr q
  -- left operand at (result row, q)
  have e1 : d.lhsIdx j ((contrEquiv1 d K h.rank_contr h.size_contr).symm q) = ix2 (j 0) q := by
    funext a
    match a with
    | ⟨0, _⟩ => exact Fin.ext (h.lhs_row j _)
    | ⟨1, _⟩ => exact Fin.ext ((h.lhs_col j _).trans hk)
  -- right operand at (q, result column)
  have e2 : d.rhsIdx j ((contrEquiv1 d K h.rank_contr h.size_contr).symm q) = ix2 q (j 1) := by
    funext a
    match a with
    | ⟨0, _⟩ => exact Fin.ext ((h.rhs_row j _).trans hk)
    | ⟨1, _⟩ => exact Fin.ext (h.rhs_col j _)
  exact congrArg₂ (· * ·) (congrArg l e1) (congrArg w e2)

/-- `tpu.matmul` into the zero accumulator, at an entry, at the ideal values (operands of any float formats). -/
theorem RowsCols.matmul_zero_apply {φ₁ φ₂ : FTy} (h : RowsCols d) (prec : Option ContractPrecision)
    (l : FVec Ideal ⟨2, ![n, K]⟩ φ₁) (w : FVec Ideal ⟨2, ![K, c]⟩ φ₂) (j : (⟨2, ![n, c]⟩ : Shape).Idx) :
    matmul (F := Ideal) d prec l w (constant ⟨2, ![n, c]⟩ .f32 0x00000000#32) j
      = ∑ q : Fin K, l (ix2 (j 0) q) * w (ix2 q (j 1)) :=
  (Ideal.matmul_constant_zero_apply d prec l w j).trans (h.sum_eq l w j)

/-- The host's `dot_general`, at an entry, at the ideal values. -/
theorem RowsCols.dotGeneral_apply {φ₁ φ₂ : FTy} (h : RowsCols d) (prec : Option ContractPrecision)
    (l : FVec Ideal ⟨2, ![n, K]⟩ φ₁) (w : FVec Ideal ⟨2, ![K, c]⟩ φ₂) (j : (⟨2, ![n, c]⟩ : Shape).Idx) :
    Host.dotGeneral (F := Ideal) d prec l w j = ∑ q : Fin K, l (ix2 (j 0) q) * w (ix2 q (j 1)) :=
  (Ideal.dotGeneral_apply d prec .single l w j).trans (h.sum_eq l w j)

end Cert.Lib.DotRowsCols

end
-- ==== Proof.EdgeBase.lean ====
/-
  The first kernel region read as values: the pure part. Its grid has 489 points; point `t` holds rows 2048·t … 2048·t + 2047
  of the padded edge arrays (review features x, the gathered coefficient column c, the two gathered embeddings) and the two
  whole 64 × 64 weight matrices. At Ideal a change of float format is the identity and a matrix product into a zero accumulator
  is the plain sum over the shared axis, so with the transposed weights the body stores, entry by entry,
      (∑ q, x (e, q) · w₁ (v, q)) · c (e, 0),      (f₂ (e, v) + ∑ q, x (e, q) · w₂ (v, q)) · c (e, 0),      f₃ (e, v) · c (e, 0).
-/
import proofs.«157525_j69131793596496_1_alg».proof.Proof.Gen.KernelIdeal.Frame
import proofs.«157525_j69131793596496_1_alg».proof.Proof.LibColumn
import proofs.«157525_j69131793596496_1_alg».proof.Proof.LibDotRowsCols
import Idealize.ShloMosaic.Lib.Pipeline.Value
import Idealize.ShloMosaic.Lib.ValueIdx
import Idealize.ShloMosaic.PureOps.Ideal.Laws

set_option maxRecDepth 16384

noncomputable section

open scoped BigOperators

namespace Cert.KernelIdeal.EdgeValue

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen Cert.Lib.DotRowsCols

/-! ## The three message arrays on the padded edge axis, as functions of the padded inputs -/

/-- The linear message:  (e, v) ↦ (∑ q, x (e, q) · w (v, q)) · c (e, 0). -/
def linMsg (x : S1001472x64.Idx → EReal) (c : S1001472x1.Idx → EReal) (w : S64x64.Idx → EReal) : S1001472x64.Idx → EReal :=
  fun i => (∑ q : Fin 64, x (ix2 (i 0) q) * w (ix2 (i 1) q)) * c (ix2 (i 0) (0 : Fin 1))

/-- The affine message:  (e, v) ↦ (f (e, v) + ∑ q, x (e, q) · w (v, q)) · c (e, 0). -/
def affMsg (x : S1001472x64.Idx → EReal) (c : S1001472x1.Idx → EReal) (f : S1001472x64.Idx → EReal) (w : S64x64.Idx → EReal) :
    S1001472x64.Idx → EReal :=
  fun i => (f i + ∑ q : Fin 64, x (ix2 (i 0) q) * w (ix2 (i 1) q)) * c (ix2 (i 0) (0 : Fin 1))

/-- The embedding message:  (e, v) ↦ f (e, v) · c (e, 0). -/
def embMsg (c : S1001472x1.Idx → EReal) (f : S1001472x64.Idx → EReal) : S1001472x64.Idx → EReal :=
  fun i => f i * c (ix2 (i 0) (0 : Fin 1))

theorem hz : (![0, 0] : Fin 2 → Nat) = fun _ => 0 := funext fun a => by fin_cases a <;> rfl

/-! ## The body's stored values at an entry -/

/-- The transpose of a 64 × 64 matrix at (q, v) is the matrix at (v, q). -/
theorem transpose_sq_apply {α : Type} (x : S64x64.Idx → α) (h : S64x64.Transposes [1, 0] S64x64) (q v : Fin 64) :
    transpose S64x64 [1, 0] x h (ix2 q v) = x (ix2 v q) :=
  transpose_apply [1, 0] x h (ix2 q v) (ix2 v q) (fun b => by match b with | ⟨0, _⟩ => rfl | ⟨1, _⟩ => rfl)

/-- The block-by-matrix product contracts the block's lanes with the matrix's rows. -/
theorem dims_rowsCols : RowsCols (n := 2048) (K := 64) (c := 64) dot_S2048x64_S64x64_S2048x64_1_0_0_1_n_n :=
  ⟨rfl, rfl, rfl, rfl, rfl, rfl⟩

/-- The block times the transposed matrix at (p, v):  ∑ q, x (p, q) · w (v, q). -/
theorem prod_apply (v0 : Vec Ideal S2048x64 .f32) (v3 : Vec Ideal S64x64 .f32) (p : Fin 2048) (v : Fin 64) :
    matmul (F := Ideal) dot_S2048x64_S64x64_S2048x64_1_0_0_1_n_n none (k0_pay1 v0)
        (transpose S64x64 [1, 0] (truncf .bf16 v3 bitsLt_bf16_f32) transposes_S64x64_p1_0_S64x64)
        (constant S2048x64 .f32 0x00000000#32) (ix2 p v)
      = ∑ q : Fin 64, v0 (ix2 p q) * v3 (ix2 v q) := by
  refine (dims_rowsCols.matmul_zero_apply none _ _ (ix2 p v)).trans ?_
  refine Finset.sum_congr rfl fun q _ => ?_
  show k0_pay1 v0 (ix2 p q) * transpose S64x64 [1, 0] (truncf .bf16 v3 bitsLt_bf16_f32) transposes_S64x64_p1_0_S64x64 (ix2 q v) = _
  rw [transpose_sq_apply, truncf_apply]
  unfold k0_pay1
  rw [truncf_apply, shapeCast_self]

theorem pay3_apply (v0 : Vec Ideal S2048x64 .f32) (v3 : Vec Ideal S64x64 .f32) (v11 : Vec Ideal S2048x1 .f32) (p : Fin 2048) (v : Fin 64) :
    k0_pay3 v0 v3 v11 (ix2 p v) = (∑ q : Fin 64, v0 (ix2 p q) * v3 (ix2 v q)) * v11 (ix2 p (0 : Fin 1)) := by
  unfold k0_pay3 k0_pay2
  rw [mulf_apply, broadcastTo_a1_ab_apply, shapeCast_self, prod_apply]

theorem pay4_apply (v0 : Vec Ideal S2048x64 .f32) (v5 : Vec Ideal S64x64 .f32) (v11 : Vec Ideal S2048x1 .f32) (v16 : Vec Ideal S2048x64 .f32)
    (p : Fin 2048) (v : Fin 64) :
    k0_pay4 v0 v5 v11 v16 (ix2 p v) = (v16 (ix2 p v) + ∑ q : Fin 64, v0 (ix2 p q) * v5 (ix2 v q)) * v11 (ix2 p (0 : Fin 1)) := by
  unfold k0_pay4 k0_pay2
  rw [mulf_apply, addf_apply, broadcastTo_a1_ab_apply, shapeCast_self, shapeCast_self, prod_apply]

theorem pay5_apply (v11 : Vec Ideal S2048x1 .f32) (v22 : Vec Ideal S2048x64 .f32) (p : Fin 2048) (v : Fin 64) :
    k0_pay5 v11 v22 (ix2 p v) = v22 (ix2 p v) * v11 (ix2 p (0 : Fin 1)) := by
  unfold k0_pay5 k0_pay2
  rw [mulf_apply, broadcastTo_a1_ab_apply, shapeCast_self, shapeCast_self]

/-! ## One grid point over plain blocks: the stored entry is the message array's entry -/

theorem lin_point (x0 : Vec Ideal S2048x64 .f32) (x4 : Vec Ideal S64x64 .f32) (x1 : Vec Ideal S2048x1 .f32)
    (x : S1001472x64.Idx → EReal) (c : S1001472x1.Idx → EReal) (w : S64x64.Idx → EReal)
    (j : S2048x64.Idx) (i : S1001472x64.Idx)
    (h0 : ∀ q : Fin 64, x0 (ix2 (j 0) q) = x (ix2 (i 0) q))
    (h4 : ∀ q : Fin 64, x4 (ix2 (j 1) q) = w (ix2 (i 1) q))
    (h1 : x1 (ix2 (j 0) (0 : Fin 1)) = c (ix2 (i 0) (0 : Fin 1))) :
    k0_pay3 x0 x4 x1 j = linMsg x c w i := by
  obtain ⟨p, v, rfl⟩ : ∃ (p : Fin 2048) (v : Fin 64), j = ix2 p v := ⟨j 0, j 1, eq_ix2 j⟩
  rw [pay3_apply]
  unfold linMsg
  rw [← h1]
  refine congrArg (· * _) (Finset.sum_congr rfl fun q _ => ?_)
  rw [← h0 q, ← h4 q]

theorem aff_point (x0 : Vec Ideal S2048x64 .f32) (x5 : Vec Ideal S64x64 .f32) (x1 : Vec Ideal S2048x1 .f32) (x2 : Vec Ideal S2048x64 .f32)
    (x : S1001472x64.Idx → EReal) (c : S1001472x1.Idx → EReal) (f : S1001472x64.Idx → EReal) (w : S64x64.Idx → EReal)
    (j : S2048x64.Idx) (i : S1001472x64.Idx)
    (h0 : ∀ q : Fin 64, x0 (ix2 (j 0) q) = x (ix2 (i 0) q))
    (h5 : ∀ q : Fin 64, x5 (ix2 (j 1) q) = w (ix2 (i 1) q))
    (h1 : x1 (ix2 (j 0) (0 : Fin 1)) = c (ix2 (i 0) (0 : Fin 1)))
    (h2 : x2 j = f i) :
    k0_pay4 x0 x5 x1 x2 j = affMsg x c f w i := by
  obtain ⟨p, v, rfl⟩ : ∃ (p : Fin 2048) (v : Fin 64), j = ix2 p v := ⟨j 0, j 1, eq_ix2 j⟩
  rw [pay4_apply]
  unfold affMsg
  rw [← h1, ← h2]
  refine congrArg (fun s => (x2 (ix2 p v) + s) * _) (Finset.sum_congr rfl fun q _ => ?_)
  rw [← h0 q, ← h5 q]

theorem emb_point (x1 : Vec Ideal S2048x1 .f32) (x3 : Vec Ideal S2048x64 .f32)
    (c : S1001472x1.Idx → EReal) (f : S1001472x64.Idx → EReal)
    (j : S2048x64.Idx) (i : S1001472x64.Idx)
    (h1 : x1 (ix2 (j 0) (0 : Fin 1)) = c (ix2 (i 0) (0 : Fin 1)))
    (h3 : x3 j = f i) :
    k0_pay5 x1 x3 j = embMsg c f i := by
  obtain ⟨p, v, rfl⟩ : ∃ (p : Fin 2048) (v : Fin 64), j = ix2 p v := ⟨j 0, j 1, eq_ix2 j⟩
  rw [pay5_apply]
  unfold embMsg
  rw [← h1, ← h3]

/-! ## The printed index maps over the grid -/

/-- The edge windows' block index at point `t` is (t, 0); the weight windows' is (0, 0). -/
theorem idx_facts : ∀ t : Fin cfg0.N,
    (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = t.val ∧ win0_2.index t (1 : Fin 2) = 0)
    ∧ (win0_3.index t (0 : Fin 2) = t.val ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = t.val ∧ win0_6.index t (1 : Fin 2) = 0)
    ∧ (win0_7.index t (0 : Fin 2) = t.val ∧ win0_7.index t (1 : Fin 2) = 0)
    ∧ (win0_8.index t (0 : Fin 2) = t.val ∧ win0_8.index t (1 : Fin 2) = 0) :=
  (by decide +kernel : ∀ t : Fin grid0.N, _)

/-- Every block row 0 … 488 is some point's. -/
theorem pt_of_row : ∀ q : Fin 489, ∃ t : Fin cfg0.N, t.val = q.val :=
  (by decide +kernel : ∀ q : Fin 489, ∃ t : Fin grid0.N, t.val = q.val)

end Cert.KernelIdeal.EdgeValue

end
-- ==== Proof.EdgeCover6.lean ====
/-
  Output window 6 of the first kernel region: its 489 blocks of 2048 rows tile the [1001472, 64] array it writes.
-/
import proofs.«157525_j69131793596496_1_alg».proof.Proof.EdgeBase

set_option maxRecDepth 16384

noncomputable section

namespace Cert.KernelIdeal.EdgeValue

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen

/-- An index of the array lies in point `t`'s block of window 6 iff each coordinate lies in the block's range. -/
theorem mem_blk6 (t : Fin cfg0.N) (i : S1001472x64.Idx) :
    i ∈ ((cfg0.win 6).blk t).view.set ↔ ∀ a : Fin 2, win0_6.index t a * S2048x64.size a ≤ (i a).val ∧ (i a).val < win0_6.index t a * S2048x64.size a + S2048x64.size a := by
  show i ∈ ((View.whole main_v25_0).slice (win0_6.rect t)).set ↔ _
  rw [View.set_slice_whole, Rect.mem_set_unit]
  exact Iff.rfl

/-- Every index of window 6's array is in the block of the point its row falls in. -/
theorem cover6 (i : S1001472x64.Idx) : ∃ t : Fin cfg0.N, (cfg0.win 6).flush t = true ∧ i ∈ ((cfg0.win 6).blk t).view.set := by
  have hi0 : (i 0).val < 1001472 := (i 0).isLt
  have hi1 : (i 1).val < 64 := (i 1).isLt
  obtain ⟨t, ht⟩ := pt_of_row ⟨(i 0).val / 2048, by omega⟩
  obtain ⟨⟨a0, b0⟩, ⟨a1, b1⟩, ⟨a2, b2⟩, ⟨a3, b3⟩, ⟨a4, b4⟩, ⟨a5, b5⟩, ⟨a6, b6⟩, ⟨a7, b7⟩, ⟨a8, b8⟩⟩ := idx_facts t
  have ht' : t.val = (i 0).val / 2048 := ht
  refine ⟨t, flush0_6 t, ?_⟩
  rw [mem_blk6]
  intro a
  match a with
  | ⟨0, _⟩ => show win0_6.index t (0 : Fin 2) * 2048 ≤ (i 0).val ∧ (i 0).val < win0_6.index t (0 : Fin 2) * 2048 + 2048; omega
  | ⟨1, _⟩ => show win0_6.index t (1 : Fin 2) * 64 ≤ (i 1).val ∧ (i 1).val < win0_6.index t (1 : Fin 2) * 64 + 64; omega

end Cert.KernelIdeal.EdgeValue

end
-- ==== Proof.EdgeWin6.lean ====
/-
  Output window 6 of the first kernel region: after the region its array is the linear message of the padded review features,
  the padded coefficient column and the first weight matrix.
-/
import proofs.«157525_j69131793596496_1_alg».proof.Proof.EdgeBase
import proofs.«157525_j69131793596496_1_alg».proof.Proof.EdgeCover6

set_option maxRecDepth 16384

noncomputable section

namespace Cert.KernelIdeal.EdgeValue

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen

variable (V : (c : Dev nD) → (b : Ref sig .tc) → Buf (Elt Ideal) ((c : Thread nD τ).loc b))

/-- What grid point `t` writes back through window 6 is block `t` of the linear message array: the point's rows of the
    features against the whole weight matrix, scaled by the rows' coefficients. -/
theorem flushed6_eq (c : Dev nD) (t : Fin cfg0.N) :
    (dat0 V c).flushed 6 t = ((cfg0.win 6).blk t).view.read (Elt Ideal) (linMsg (V c main_v21) (V c main_v22) (V c main_arg5)) := by
  show (cfg0.win 6).cut (grid0.coords t) ((dat0 V c).after 6 t) = _
  rw [after0_6]
  unfold out0_6
  rw [View.canon_unit_zero hz]
  simp only [View.ld_unit_zero (S := S2048x64) hz, View.ld_unit_zero (S := S2048x1) hz, View.ld_unit_zero (S := S64x64) hz]
  obtain ⟨⟨a0, b0⟩, ⟨a1, b1⟩, ⟨a2, b2⟩, ⟨a3, b3⟩, ⟨a4, b4⟩, ⟨a5, b5⟩, ⟨a6, b6⟩, ⟨a7, b7⟩, ⟨a8, b8⟩⟩ := idx_facts t
  funext j
  refine lin_point (iblk0 V c 0 t) (iblk0 V c 4 t) (iblk0 V c 1 t) (V c main_v21) (V c main_v22) (V c main_arg5) j (((cfg0.win 6).blk t).view.emb j) ?_ ?_ ?_
  · intro q
    show V c main_v21 (((cfg0.win 0).blk t).view.emb (ix2 (j 0) q)) = V c main_v21 (ix2 ((((cfg0.win 6).blk t).view.emb j) 0) q)
    refine congrArg _ (funext fun a => Fin.ext ?_)
    match a with
    | ⟨0, _⟩ => show win0_0.index t (0 : Fin 2) * 2048 + 1 * (j 0).val = win0_6.index t (0 : Fin 2) * 2048 + 1 * (j 0).val; omega
    | ⟨1, _⟩ => show win0_0.index t (1 : Fin 2) * 64 + 1 * q.val = q.val; omega
  · intro q
    show V c main_arg5 (((cfg0.win 4).blk t).view.emb (ix2 (j 1) q)) = V c main_arg5 (ix2 ((((cfg0.win 6).blk t).view.emb j) 1) q)
    refine congrArg _ (funext fun a => Fin.ext ?_)
    match a with
    | ⟨0, _⟩ => show win0_4.index t (0 : Fin 2) * 64 + 1 * (j 1).val = win0_6.index t (1 : Fin 2) * 64 + 1 * (j 1).val; omega
    | ⟨1, _⟩ => show win0_4.index t (1 : Fin 2) * 64 + 1 * q.val = q.val; omega
  · show V c main_v22 (((cfg0.win 1).blk t).view.emb (ix2 (j 0) (0 : Fin 1))) = V c main_v22 (ix2 ((((cfg0.win 6).blk t).view.emb j) 0) (0 : Fin 1))
    refine congrArg _ (funext fun a => Fin.ext ?_)
    match a with
    | ⟨0, _⟩ => show win0_1.index t (0 : Fin 2) * 2048 + 1 * (j 0).val = win0_6.index t (0 : Fin 2) * 2048 + 1 * (j 0).val; omega
    | ⟨1, _⟩ => show win0_1.index t (1 : Fin 2) * 1 + 1 * 0 = 0; omega

/-- After the region, window 6's array is the linear message array, whole. -/
theorem final6 (c : Dev nD) : (dat0 V c).arrAt 6 cfg0.N = linMsg (V c main_v21) (V c main_v22) (V c main_arg5) :=
  (dat0 V c).arrAt_eq_of_cover 6 _ (fun t _ => flushed6_eq V c t) cover6

end Cert.KernelIdeal.EdgeValue

end
-- ==== Proof.EdgeCover7.lean ====
/-
  Output window 7 of the first kernel region: its 489 blocks of 2048 rows tile the [1001472, 64] array it writes.
-/
import proofs.«157525_j69131793596496_1_alg».proof.Proof.EdgeBase

set_option maxRecDepth 16384

noncomputable section

namespace Cert.KernelIdeal.EdgeValue

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen

/-- An index of the array lies in point `t`'s block of window 7 iff each coordinate lies in the block's range. -/
theorem mem_blk7 (t : Fin cfg0.N) (i : S1001472x64.Idx) :
    i ∈ ((cfg0.win 7).blk t).view.set ↔ ∀ a : Fin 2, win0_7.index t a * S2048x64.size a ≤ (i a).val ∧ (i a).val < win0_7.index t a * S2048x64.size a + S2048x64.size a := by
  show i ∈ ((View.whole main_v25_1).slice (win0_7.rect t)).set ↔ _
  rw [View.set_slice_whole, Rect.mem_set_unit]
  exact Iff.rfl

/-- Every index of window 7's array is in the block of the point its row falls in. -/
theorem cover7 (i : S1001472x64.Idx) : ∃ t : Fin cfg0.N, (cfg0.win 7).flush t = true ∧ i ∈ ((cfg0.win 7).blk t).view.set := by
  have hi0 : (i 0).val < 1001472 := (i 0).isLt
  have hi1 : (i 1).val < 64 := (i 1).isLt
  obtain ⟨t, ht⟩ := pt_of_row ⟨(i 0).val / 2048, by omega⟩
  obtain ⟨⟨a0, b0⟩, ⟨a1, b1⟩, ⟨a2, b2⟩, ⟨a3, b3⟩, ⟨a4, b4⟩, ⟨a5, b5⟩, ⟨a6, b6⟩, ⟨a7, b7⟩, ⟨a8, b8⟩⟩ := idx_facts t
  have ht' : t.val = (i 0).val / 2048 := ht
  refine ⟨t, flush0_7 t, ?_⟩
  rw [mem_blk7]
  intro a
  match a with
  | ⟨0, _⟩ => show win0_7.index t (0 : Fin 2) * 2048 ≤ (i 0).val ∧ (i 0).val < win0_7.index t (0 : Fin 2) * 2048 + 2048; omega
  | ⟨1, _⟩ => show win0_7.index t (1 : Fin 2) * 64 ≤ (i 1).val ∧ (i 1).val < win0_7.index t (1 : Fin 2) * 64 + 64; omega

end Cert.KernelIdeal.EdgeValue

end
-- ==== Proof.EdgeWin7.lean ====
/-
  Output window 7 of the first kernel region: after the region its array is the affine message of the padded review features,
  the padded coefficient column, the first padded embedding and the second weight matrix.
-/
import proofs.«157525_j69131793596496_1_alg».proof.Proof.EdgeBase
import proofs.«157525_j69131793596496_1_alg».proof.Proof.EdgeCover7

set_option maxRecDepth 16384

noncomputable section

namespace Cert.KernelIdeal.EdgeValue

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen

variable (V : (c : Dev nD) → (b : Ref sig .tc) → Buf (Elt Ideal) ((c : Thread nD τ).loc b))

/-- What grid point `t` writes back through window 7 is block `t` of the affine message array: the embedding's rows plus the
    point's rows of the features against the whole weight matrix, scaled by the rows' coefficients. -/
theorem flushed7_eq (c : Dev nD) (t : Fin cfg0.N) :
    (dat0 V c).flushed 7 t = ((cfg0.win 7).blk t).view.read (Elt Ideal) (affMsg (V c main_v21) (V c main_v22) (V c main_v23) (V c main_arg6)) := by
  show (cfg0.win 7).cut (grid0.coords t) ((dat0 V c).after 7 t) = _
  rw [after0_7]
  unfold out0_7
  rw [View.canon_unit_zero hz]
  simp only [View.ld_unit_zero (S := S2048x64) hz, View.ld_unit_zero (S := S2048x1) hz, View.ld_unit_zero (S := S64x64) hz]
  obtain ⟨⟨a0, b0⟩, ⟨a1, b1⟩, ⟨a2, b2⟩, ⟨a3, b3⟩, ⟨a4, b4⟩, ⟨a5, b5⟩, ⟨a6, b6⟩, ⟨a7, b7⟩, ⟨a8, b8⟩⟩ := idx_facts t
  funext j
  refine aff_point (iblk0 V c 0 t) (iblk0 V c 5 t) (iblk0 V c 1 t) (iblk0 V c 2 t) (V c main_v21) (V c main_v22) (V c main_v23) (V c main_arg6) j (((cfg0.win 7).blk t).view.emb j) ?_ ?_ ?_ ?_
  · intro q
    show V c main_v21 (((cfg0.win 0).blk t).view.emb (ix2 (j 0) q)) = V c main_v21 (ix2 ((((cfg0.win 7).blk t).view.emb j) 0) q)
    refine congrArg _ (funext fun a => Fin.ext ?_)
    match a with
    | ⟨0, _⟩ => show win0_0.index t (0 : Fin 2) * 2048 + 1 * (j 0).val = win0_7.index t (0 : Fin 2) * 2048 + 1 * (j 0).val; omega
    | ⟨1, _⟩ => show win0_0.index t (1 : Fin 2) * 64 + 1 * q.val = q.val; omega
  · intro q
    show V c main_arg6 (((cfg0.win 5).blk t).view.emb (ix2 (j 1) q)) = V c main_arg6 (ix2 ((((cfg0.win 7).blk t).view.emb j) 1) q)
    refine congrArg _ (funext fun a => Fin.ext ?_)
    match a with
    | ⟨0, _⟩ => show win0_5.index t (0 : Fin 2) * 64 + 1 * (j 1).val = win0_7.index t (1 : Fin 2) * 64 + 1 * (j 1).val; omega
    | ⟨1, _⟩ => show win0_5.index t (1 : Fin 2) * 64 + 1 * q.val = q.val; omega
  · show V c main_v22 (((cfg0.win 1).blk t).view.emb (ix2 (j 0) (0 : Fin 1))) = V c main_v22 (ix2 ((((cfg0.win 7).blk t).view.emb j) 0) (0 : Fin 1))
    refine congrArg _ (funext fun a => Fin.ext ?_)
    match a with
    | ⟨0, _⟩ => show win0_1.index t (0 : Fin 2) * 2048 + 1 * (j 0).val = win0_7.index t (0 : Fin 2) * 2048 + 1 * (j 0).val; omega
    | ⟨1, _⟩ => show win0_1.index t (1 : Fin 2) * 1 + 1 * 0 = 0; omega
  · show V c main_v23 (((cfg0.win 2).blk t).view.emb j) = V c main_v23 (((cfg0.win 7).blk t).view.emb j)
    refine congrArg _ (funext fun a => Fin.ext ?_)
    match a with
    | ⟨0, _⟩ => show win0_2.index t (0 : Fin 2) * 2048 + 1 * (j 0).val = win0_7.index t (0 : Fin 2) * 2048 + 1 * (j 0).val; omega
    | ⟨1, _⟩ => show win0_2.index t (1 : Fin 2) * 64 + 1 * (j 1).val = win0_7.index t (1 : Fin 2) * 64 + 1 * (j 1).val; omega

/-- After the region, window 7's array is the affine message array, whole. -/
theorem final7 (c : Dev nD) : (dat0 V c).arrAt 7 cfg0.N = affMsg (V c main_v21) (V c main_v22) (V c main_v23) (V c main_arg6) :=
  (dat0 V c).arrAt_eq_of_cover 7 _ (fun t _ => flushed7_eq V c t) cover7

end Cert.KernelIdeal.EdgeValue

end
-- ==== Proof.EdgeCover8.lean ====
/-
  Output window 8 of the first kernel region: its 489 blocks of 2048 rows tile the [1001472, 64] array it writes.
-/
import proofs.«157525_j69131793596496_1_alg».proof.Proof.EdgeBase

set_option maxRecDepth 16384

noncomputable section

namespace Cert.KernelIdeal.EdgeValue

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen

/-- An index of the array lies in point `t`'s block of window 8 iff each coordinate lies in the block's range. -/
theorem mem_blk8 (t : Fin cfg0.N) (i : S1001472x64.Idx) :
    i ∈ ((cfg0.win 8).blk t).view.set ↔ ∀ a : Fin 2, win0_8.index t a * S2048x64.size a ≤ (i a).val ∧ (i a).val < win0_8.index t a * S2048x64.size a + S2048x64.size a := by
  show i ∈ ((View.whole main_v25_2).slice (win0_8.rect t)).set ↔ _
  rw [View.set_slice_whole, Rect.mem_set_unit]
  exact Iff.rfl

/-- Every index of window 8's array is in the block of the point its row falls in. -/
theorem cover8 (i : S1001472x64.Idx) : ∃ t : Fin cfg0.N, (cfg0.win 8).flush t = true ∧ i ∈ ((cfg0.win 8).blk t).view.set := by
  have hi0 : (i 0).val < 1001472 := (i 0).isLt
  have hi1 : (i 1).val < 64 := (i 1).isLt
  obtain ⟨t, ht⟩ := pt_of_row ⟨(i 0).val / 2048, by omega⟩
  obtain ⟨⟨a0, b0⟩, ⟨a1, b1⟩, ⟨a2, b2⟩, ⟨a3, b3⟩, ⟨a4, b4⟩, ⟨a5, b5⟩, ⟨a6, b6⟩, ⟨a7, b7⟩, ⟨a8, b8⟩⟩ := idx_facts t
  have ht' : t.val = (i 0).val / 2048 := ht
  refine ⟨t, flush0_8 t, ?_⟩
  rw [mem_blk8]
  intro a
  match a with
  | ⟨0, _⟩ => show win0_8.index t (0 : Fin 2) * 2048 ≤ (i 0).val ∧ (i 0).val < win0_8.index t (0 : Fin 2) * 2048 + 2048; omega
  | ⟨1, _⟩ => show win0_8.index t (1 : Fin 2) * 64 ≤ (i 1).val ∧ (i 1).val < win0_8.index t (1 : Fin 2) * 64 + 64; omega

end Cert.KernelIdeal.EdgeValue

end
-- ==== Proof.EdgeWin8.lean ====
/-
  Output window 8 of the first kernel region: after the region its array is the embedding message of the padded coefficient
  column and the second padded embedding.
-/
import proofs.«157525_j69131793596496_1_alg».proof.Proof.EdgeBase
import proofs.«157525_j69131793596496_1_alg».proof.Proof.EdgeCover8

set_option maxRecDepth 16384

noncomputable section

namespace Cert.KernelIdeal.EdgeValue

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen

variable (V : (c : Dev nD) → (b : Ref sig .tc) → Buf (Elt Ideal) ((c : Thread nD τ).loc b))

/-- What grid point `t` writes back through window 8 is block `t` of the embedding message array: the embedding's rows scaled
    by the rows' coefficients. -/
theorem flushed8_eq (c : Dev nD) (t : Fin cfg0.N) :
    (dat0 V c).flushed 8 t = ((cfg0.win 8).blk t).view.read (Elt Ideal) (embMsg (V c main_v22) (V c main_v24)) := by
  show (cfg0.win 8).cut (grid0.coords t) ((dat0 V c).after 8 t) = _
  rw [after0_8]
  unfold out0_8
  rw [View.canon_unit_zero hz]
  simp only [View.ld_unit_zero (S := S2048x64) hz, View.ld_unit_zero (S := S2048x1) hz, View.ld_unit_zero (S := S64x64) hz]
  obtain ⟨⟨a0, b0⟩, ⟨a1, b1⟩, ⟨a2, b2⟩, ⟨a3, b3⟩, ⟨a4, b4⟩, ⟨a5, b5⟩, ⟨a6, b6⟩, ⟨a7, b7⟩, ⟨a8, b8⟩⟩ := idx_facts t
  funext j
  refine emb_point (iblk0 V c 1 t) (iblk0 V c 3 t) (V c main_v22) (V c main_v24) j (((cfg0.win 8).blk t).view.emb j) ?_ ?_
  · show V c main_v22 (((cfg0.win 1).blk t).view.emb (ix2 (j 0) (0 : Fin 1))) = V c main_v22 (ix2 ((((cfg0.win 8).blk t).view.emb j) 0) (0 : Fin 1))
    refine congrArg _ (funext fun a => Fin.ext ?_)
    match a with
    | ⟨0, _⟩ => show win0_1.index t (0 : Fin 2) * 2048 + 1 * (j 0).val = win0_8.index t (0 : Fin 2) * 2048 + 1 * (j 0).val; omega
    | ⟨1, _⟩ => show win0_1.index t (1 : Fin 2) * 1 + 1 * 0 = 0; omega
  · show V c main_v24 (((cfg0.win 3).blk t).view.emb j) = V c main_v24 (((cfg0.win 8).blk t).view.emb j)
    refine congrArg _ (funext fun a => Fin.ext ?_)
    match a with
    | ⟨0, _⟩ => show win0_3.index t (0 : Fin 2) * 2048 + 1 * (j 0).val = win0_8.index t (0 : Fin 2) * 2048 + 1 * (j 0).val; omega
    | ⟨1, _⟩ => show win0_3.index t (1 : Fin 2) * 64 + 1 * (j 1).val = win0_8.index t (1 : Fin 2) * 64 + 1 * (j 1).val; omega

/-- After the region, window 8's array is the embedding message array, whole. -/
theorem final8 (c : Dev nD) : (dat0 V c).arrAt 8 cfg0.N = embMsg (V c main_v22) (V c main_v24) :=
  (dat0 V c).arrAt_eq_of_cover 8 _ (fun t _ => flushed8_eq V c t) cover8

end Cert.KernelIdeal.EdgeValue

end
-- ==== Proof.NodeBase.lean ====
/-
  The second kernel region read as values. Its grid has 100 points; point `t` holds rows 2000·t … 2000·t + 1999 of three
  [200000, 64] arrays and of the [200000, 1] coefficient column, and writes back, for each of the three, the block
  with every row multiplied by that row's coefficient. The blocks tile the arrays, so after the region each result array is,
  entry by entry,  h (n, v) · ci (n, 0).
-/
import proofs.«157525_j69131793596496_1_alg».proof.Proof.Gen.KernelIdeal.Frame
import proofs.«157525_j69131793596496_1_alg».proof.Proof.LibColumn
import Idealize.ShloMosaic.Lib.Pipeline.Value
import Idealize.ShloMosaic.Lib.ValueIdx

set_option maxRecDepth 16384

noncomputable section

namespace Cert.KernelIdeal.NodeValue

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen

/-- The rows of `h` scaled by the coefficient column `ci`:  (n, v) ↦ h (n, v) · ci (n, 0). -/
def rowScaled (h : S200000x64.Idx → EReal) (ci : S200000x1.Idx → EReal) : S200000x64.Idx → EReal :=
  fun i => h i * ci (ix2 (i 0) (0 : Fin 1))

theorem hz : (![0, 0] : Fin 2 → Nat) = fun _ => 0 := funext fun a => by fin_cases a <;> rfl

/-- The body's product at an entry: the block's entry times its row's coefficient. -/
theorem pay_apply (v0 : Vec Ideal S2000x1 .f32) (v1 : Vec Ideal S2000x64 .f32) (j : S2000x64.Idx) :
    k1_pay1 v0 v1 j = v1 j * v0 (ix2 (j 0) (0 : Fin 1)) := by
  obtain ⟨p, q, rfl⟩ : ∃ (p : Fin 2000) (q : Fin 64), j = ix2 p q := ⟨j 0, j 1, eq_ix2 j⟩
  unfold k1_pay1
  rw [mulf_apply, shapeCast_self, broadcastTo_a1_ab_apply]

/-- One point of the region, over plain blocks: if the block's entry is the array's and the block's coefficient
    is the array row's, the stored value is the row-scaled array's entry. The three stores compute the same product. -/
theorem scaled_point {k : Vec Ideal S2000x1 .f32 → Vec Ideal S2000x64 .f32 → FVec Ideal S2000x64 .f32}
    (hk : ∀ v0 v1, k v0 v1 = k1_pay1 v0 v1)
    (x : Vec Ideal S2000x64 .f32) (x3 : Vec Ideal S2000x1 .f32) (h : S200000x64.Idx → EReal) (ci : S200000x1.Idx → EReal)
    (j : S2000x64.Idx) (i : S200000x64.Idx)
    (hx : x j = h i) (hc : x3 (ix2 (j 0) (0 : Fin 1)) = ci (ix2 (i 0) (0 : Fin 1))) :
    k x3 x j = rowScaled h ci i := by
  rw [hk, pay_apply, hx, hc]
  rfl

variable (V : (c : Dev nD) → (b : Ref sig .tc) → Buf (Elt Ideal) ((c : Thread nD τ).loc b))

/-- The printed index maps over the grid: every window's block index at point `t` is (t, 0). -/
theorem idx_facts : ∀ t : Fin cfg1.N,
    (win1_0.index t (0 : Fin 2) = t.val ∧ win1_0.index t (1 : Fin 2) = 0)
    ∧ (win1_1.index t (0 : Fin 2) = t.val ∧ win1_1.index t (1 : Fin 2) = 0)
    ∧ (win1_2.index t (0 : Fin 2) = t.val ∧ win1_2.index t (1 : Fin 2) = 0)
    ∧ (win1_3.index t (0 : Fin 2) = t.val ∧ win1_3.index t (1 : Fin 2) = 0)
    ∧ (win1_4.index t (0 : Fin 2) = t.val ∧ win1_4.index t (1 : Fin 2) = 0)
    ∧ (win1_5.index t (0 : Fin 2) = t.val ∧ win1_5.index t (1 : Fin 2) = 0)
    ∧ (win1_6.index t (0 : Fin 2) = t.val ∧ win1_6.index t (1 : Fin 2) = 0) :=
  (by decide +kernel : ∀ t : Fin grid1.N, _)

/-- Every block row 0 … 99 is some point's. -/
theorem pt_of_row : ∀ q : Fin 100, ∃ t : Fin cfg1.N, t.val = q.val :=
  (by decide +kernel : ∀ q : Fin 100, ∃ t : Fin grid1.N, t.val = q.val)

end Cert.KernelIdeal.NodeValue

end
-- ==== Proof.NodeWin4.lean ====
/-
  Output window 4 of the second kernel region: the array it writes is, whole, the first input window's array with each row
  multiplied by that row's coefficient.
-/
import proofs.«157525_j69131793596496_1_alg».proof.Proof.NodeBase

set_option maxRecDepth 16384

noncomputable section

namespace Cert.KernelIdeal.NodeValue

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen

variable (V : (c : Dev nD) → (b : Ref sig .tc) → Buf (Elt Ideal) ((c : Thread nD τ).loc b))

/-! ### The rows of the input window's array, scaled by the coefficient column, block by block and whole -/

/-- What grid point `t` writes back through window 4 is block `t` of the row-scaled array. -/
theorem flushed4_eq (c : Dev nD) (t : Fin cfg1.N) :
    (dat1 V c).flushed 4 t = ((cfg1.win 4).blk t).view.read (Elt Ideal) (rowScaled (V c main_v31) (V c main_arg3)) := by
  show (cfg1.win 4).cut (grid1.coords t) ((dat1 V c).after 4 t) = _
  rw [after1_4]
  unfold out1_4
  rw [View.canon_unit_zero hz]
  simp only [View.ld_unit_zero (S := S2000x64) hz, View.ld_unit_zero (S := S2000x1) hz]
  obtain ⟨⟨a0, b0⟩, ⟨a1, b1⟩, ⟨a2, b2⟩, ⟨a3, b3⟩, ⟨a4, b4⟩, ⟨a5, b5⟩, ⟨a6, b6⟩⟩ := idx_facts t
  funext j
  refine scaled_point (k := k1_pay1) (fun _ _ => rfl) (iblk1 V c 0 t) (iblk1 V c 3 t) (V c main_v31) (V c main_arg3) j (((cfg1.win 4).blk t).view.emb j) ?_ ?_
  · show V c main_v31 (((cfg1.win 0).blk t).view.emb j) = V c main_v31 (((cfg1.win 4).blk t).view.emb j)
    refine congrArg _ (funext fun a => Fin.ext ?_)
    match a with
    | ⟨0, _⟩ => show win1_0.index t (0 : Fin 2) * 2000 + 1 * (j 0).val = win1_4.index t (0 : Fin 2) * 2000 + 1 * (j 0).val; omega
    | ⟨1, _⟩ => show win1_0.index t (1 : Fin 2) * 64 + 1 * (j 1).val = win1_4.index t (1 : Fin 2) * 64 + 1 * (j 1).val; omega
  · show V c main_arg3 (((cfg1.win 3).blk t).view.emb (ix2 (j 0) (0 : Fin 1))) = V c main_arg3 (ix2 ((((cfg1.win 4).blk t).view.emb j) 0) (0 : Fin 1))
    refine congrArg _ (funext fun a => Fin.ext ?_)
    match a with
    | ⟨0, _⟩ => show win1_3.index t (0 : Fin 2) * 2000 + 1 * (j 0).val = win1_4.index t (0 : Fin 2) * 2000 + 1 * (j 0).val; omega
    | ⟨1, _⟩ => show win1_3.index t (1 : Fin 2) * 1 + 1 * 0 = 0; omega

/-- An index of the array lies in point `t`'s block of window 4 iff each coordinate lies in the block's range. -/
theorem mem_blk4 (t : Fin cfg1.N) (i : S200000x64.Idx) :
    i ∈ ((cfg1.win 4).blk t).view.set ↔ ∀ a : Fin 2, win1_4.index t a * S2000x64.size a ≤ (i a).val ∧ (i a).val < win1_4.index t a * S2000x64.size a + S2000x64.size a := by
  show i ∈ ((View.whole main_v38_0).slice (win1_4.rect t)).set ↔ _
  rw [View.set_slice_whole, Rect.mem_set_unit]
  exact Iff.rfl

/-- Every index of window 4's array is in the block of the point its row falls in. -/
theorem cover4 (i : S200000x64.Idx) : ∃ t : Fin cfg1.N, (cfg1.win 4).flush t = true ∧ i ∈ ((cfg1.win 4).blk t).view.set := by
  have hi0 : (i 0).val < 200000 := (i 0).isLt
  have hi1 : (i 1).val < 64 := (i 1).isLt
  obtain ⟨t, ht⟩ := pt_of_row ⟨(i 0).val / 2000, by omega⟩
  obtain ⟨⟨a0, b0⟩, ⟨a1, b1⟩, ⟨a2, b2⟩, ⟨a3, b3⟩, ⟨a4, b4⟩, ⟨a5, b5⟩, ⟨a6, b6⟩⟩ := idx_facts t
  have ht' : t.val = (i 0).val / 2000 := ht
  refine ⟨t, flush1_4 t, ?_⟩
  rw [mem_blk4]
  intro a
  match a with
  | ⟨0, _⟩ => show win1_4.index t (0 : Fin 2) * 2000 ≤ (i 0).val ∧ (i 0).val < win1_4.index t (0 : Fin 2) * 2000 + 2000; omega
  | ⟨1, _⟩ => show win1_4.index t (1 : Fin 2) * 64 ≤ (i 1).val ∧ (i 1).val < win1_4.index t (1 : Fin 2) * 64 + 64; omega

/-- After the region, window 4's array is the row-scaled array, whole. -/
theorem final4 (c : Dev nD) : (dat1 V c).arrAt 4 cfg1.N = rowScaled (V c main_v31) (V c main_arg3) :=
  (dat1 V c).arrAt_eq_of_cover 4 _ (fun t _ => flushed4_eq V c t) cover4

end Cert.KernelIdeal.NodeValue

end
-- ==== Proof.NodeWin5.lean ====
/-
  Output window 5 of the second kernel region: the array it writes is, whole, the second input window's array with each row
  multiplied by that row's coefficient.
-/
import proofs.«157525_j69131793596496_1_alg».proof.Proof.NodeBase

set_option maxRecDepth 16384

noncomputable section

namespace Cert.KernelIdeal.NodeValue

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen

variable (V : (c : Dev nD) → (b : Ref sig .tc) → Buf (Elt Ideal) ((c : Thread nD τ).loc b))

/-! ### The rows of the input window's array, scaled by the coefficient column, block by block and whole -/

/-- What grid point `t` writes back through window 5 is block `t` of the row-scaled array. -/
theorem flushed5_eq (c : Dev nD) (t : Fin cfg1.N) :
    (dat1 V c).flushed 5 t = ((cfg1.win 5).blk t).view.read (Elt Ideal) (rowScaled (V c main_v34) (V c main_arg3)) := by
  show (cfg1.win 5).cut (grid1.coords t) ((dat1 V c).after 5 t) = _
  rw [after1_5]
  unfold out1_5
  rw [View.canon_unit_zero hz]
  simp only [View.ld_unit_zero (S := S2000x64) hz, View.ld_unit_zero (S := S2000x1) hz]
  obtain ⟨⟨a0, b0⟩, ⟨a1, b1⟩, ⟨a2, b2⟩, ⟨a3, b3⟩, ⟨a4, b4⟩, ⟨a5, b5⟩, ⟨a6, b6⟩⟩ := idx_facts t
  funext j
  refine scaled_point (k := k1_pay2) (fun _ _ => rfl) (iblk1 V c 1 t) (iblk1 V c 3 t) (V c main_v34) (V c main_arg3) j (((cfg1.win 5).blk t).view.emb j) ?_ ?_
  · show V c main_v34 (((cfg1.win 1).blk t).view.emb j) = V c main_v34 (((cfg1.win 5).blk t).view.emb j)
    refine congrArg _ (funext fun a => Fin.ext ?_)
    match a with
    | ⟨0, _⟩ => show win1_1.index t (0 : Fin 2) * 2000 + 1 * (j 0).val = win1_5.index t (0 : Fin 2) * 2000 + 1 * (j 0).val; omega
    | ⟨1, _⟩ => show win1_1.index t (1 : Fin 2) * 64 + 1 * (j 1).val = win1_5.index t (1 : Fin 2) * 64 + 1 * (j 1).val; omega
  · show V c main_arg3 (((cfg1.win 3).blk t).view.emb (ix2 (j 0) (0 : Fin 1))) = V c main_arg3 (ix2 ((((cfg1.win 5).blk t).view.emb j) 0) (0 : Fin 1))
    refine congrArg _ (funext fun a => Fin.ext ?_)
    match a with
    | ⟨0, _⟩ => show win1_3.index t (0 : Fin 2) * 2000 + 1 * (j 0).val = win1_5.index t (0 : Fin 2) * 2000 + 1 * (j 0).val; omega
    | ⟨1, _⟩ => show win1_3.index t (1 : Fin 2) * 1 + 1 * 0 = 0; omega

/-- An index of the array lies in point `t`'s block of window 5 iff each coordinate lies in the block's range. -/
theorem mem_blk5 (t : Fin cfg1.N) (i : S200000x64.Idx) :
    i ∈ ((cfg1.win 5).blk t).view.set ↔ ∀ a : Fin 2, win1_5.index t a * S2000x64.size a ≤ (i a).val ∧ (i a).val < win1_5.index t a * S2000x64.size a + S2000x64.size a := by
  show i ∈ ((View.whole main_v38_1).slice (win1_5.rect t)).set ↔ _
  rw [View.set_slice_whole, Rect.mem_set_unit]
  exact Iff.rfl

/-- Every index of window 5's array is in the block of the point its row falls in. -/
theorem cover5 (i : S200000x64.Idx) : ∃ t : Fin cfg1.N, (cfg1.win 5).flush t = true ∧ i ∈ ((cfg1.win 5).blk t).view.set := by
  have hi0 : (i 0).val < 200000 := (i 0).isLt
  have hi1 : (i 1).val < 64 := (i 1).isLt
  obtain ⟨t, ht⟩ := pt_of_row ⟨(i 0).val / 2000, by omega⟩
  obtain ⟨⟨a0, b0⟩, ⟨a1, b1⟩, ⟨a2, b2⟩, ⟨a3, b3⟩, ⟨a4, b4⟩, ⟨a5, b5⟩, ⟨a6, b6⟩⟩ := idx_facts t
  have ht' : t.val = (i 0).val / 2000 := ht
  refine ⟨t, flush1_5 t, ?_⟩
  rw [mem_blk5]
  intro a
  match a with
  | ⟨0, _⟩ => show win1_5.index t (0 : Fin 2) * 2000 ≤ (i 0).val ∧ (i 0).val < win1_5.index t (0 : Fin 2) * 2000 + 2000; omega
  | ⟨1, _⟩ => show win1_5.index t (1 : Fin 2) * 64 ≤ (i 1).val ∧ (i 1).val < win1_5.index t (1 : Fin 2) * 64 + 64; omega

/-- After the region, window 5's array is the row-scaled array, whole. -/
theorem final5 (c : Dev nD) : (dat1 V c).arrAt 5 cfg1.N = rowScaled (V c main_v34) (V c main_arg3) :=
  (dat1 V c).arrAt_eq_of_cover 5 _ (fun t _ => flushed5_eq V c t) cover5

end Cert.KernelIdeal.NodeValue

end
-- ==== Proof.NodeWin6.lean ====
/-
  Output window 6 of the second kernel region: the array it writes is, whole, the third input window's array with each row
  multiplied by that row's coefficient.
-/
import proofs.«157525_j69131793596496_1_alg».proof.Proof.NodeBase

set_option maxRecDepth 16384

noncomputable section

namespace Cert.KernelIdeal.NodeValue

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen

variable (V : (c : Dev nD) → (b : Ref sig .tc) → Buf (Elt Ideal) ((c : Thread nD τ).loc b))

/-! ### The rows of the input window's array, scaled by the coefficient column, block by block and whole -/

/-- What grid point `t` writes back through window 6 is block `t` of the row-scaled array. -/
theorem flushed6_eq (c : Dev nD) (t : Fin cfg1.N) :
    (dat1 V c).flushed 6 t = ((cfg1.win 6).blk t).view.read (Elt Ideal) (rowScaled (V c main_v37) (V c main_arg3)) := by
  show (cfg1.win 6).cut (grid1.coords t) ((dat1 V c).after 6 t) = _
  rw [after1_6]
  unfold out1_6
  rw [View.canon_unit_zero hz]
  simp only [View.ld_unit_zero (S := S2000x64) hz, View.ld_unit_zero (S := S2000x1) hz]
  obtain ⟨⟨a0, b0⟩, ⟨a1, b1⟩, ⟨a2, b2⟩, ⟨a3, b3⟩, ⟨a4, b4⟩, ⟨a5, b5⟩, ⟨a6, b6⟩⟩ := idx_facts t
  funext j
  refine scaled_point (k := k1_pay3) (fun _ _ => rfl) (iblk1 V c 2 t) (iblk1 V c 3 t) (V c main_v37) (V c main_arg3) j (((cfg1.win 6).blk t).view.emb j) ?_ ?_
  · show V c main_v37 (((cfg1.win 2).blk t).view.emb j) = V c main_v37 (((cfg1.win 6).blk t).view.emb j)
    refine congrArg _ (funext fun a => Fin.ext ?_)
    match a with
    | ⟨0, _⟩ => show win1_2.index t (0 : Fin 2) * 2000 + 1 * (j 0).val = win1_6.index t (0 : Fin 2) * 2000 + 1 * (j 0).val; omega
    | ⟨1, _⟩ => show win1_2.index t (1 : Fin 2) * 64 + 1 * (j 1).val = win1_6.index t (1 : Fin 2) * 64 + 1 * (j 1).val; omega
  · show V c main_arg3 (((cfg1.win 3).blk t).view.emb (ix2 (j 0) (0 : Fin 1))) = V c main_arg3 (ix2 ((((cfg1.win 6).blk t).view.emb j) 0) (0 : Fin 1))
    refine congrArg _ (funext fun a => Fin.ext ?_)
    match a with
    | ⟨0, _⟩ => show win1_3.index t (0 : Fin 2) * 2000 + 1 * (j 0).val = win1_6.index t (0 : Fin 2) * 2000 + 1 * (j 0).val; omega
    | ⟨1, _⟩ => show win1_3.index t (1 : Fin 2) * 1 + 1 * 0 = 0; omega

/-- An index of the array lies in point `t`'s block of window 6 iff each coordinate lies in the block's range. -/
theorem mem_blk6 (t : Fin cfg1.N) (i : S200000x64.Idx) :
    i ∈ ((cfg1.win 6).blk t).view.set ↔ ∀ a : Fin 2, win1_6.index t a * S2000x64.size a ≤ (i a).val ∧ (i a).val < win1_6.index t a * S2000x64.size a + S2000x64.size a := by
  show i ∈ ((View.whole main_v38_2).slice (win1_6.rect t)).set ↔ _
  rw [View.set_slice_whole, Rect.mem_set_unit]
  exact Iff.rfl

/-- Every index of window 6's array is in the block of the point its row falls in. -/
theorem cover6 (i : S200000x64.Idx) : ∃ t : Fin cfg1.N, (cfg1.win 6).flush t = true ∧ i ∈ ((cfg1.win 6).blk t).view.set := by
  have hi0 : (i 0).val < 200000 := (i 0).isLt
  have hi1 : (i 1).val < 64 := (i 1).isLt
  obtain ⟨t, ht⟩ := pt_of_row ⟨(i 0).val / 2000, by omega⟩
  obtain ⟨⟨a0, b0⟩, ⟨a1, b1⟩, ⟨a2, b2⟩, ⟨a3, b3⟩, ⟨a4, b4⟩, ⟨a5, b5⟩, ⟨a6, b6⟩⟩ := idx_facts t
  have ht' : t.val = (i 0).val / 2000 := ht
  refine ⟨t, flush1_6 t, ?_⟩
  rw [mem_blk6]
  intro a
  match a with
  | ⟨0, _⟩ => show win1_6.index t (0 : Fin 2) * 2000 ≤ (i 0).val ∧ (i 0).val < win1_6.index t (0 : Fin 2) * 2000 + 2000; omega
  | ⟨1, _⟩ => show win1_6.index t (1 : Fin 2) * 64 ≤ (i 1).val ∧ (i 1).val < win1_6.index t (1 : Fin 2) * 64 + 64; omega

/-- After the region, window 6's array is the row-scaled array, whole. -/
theorem final6 (c : Dev nD) : (dat1 V c).arrAt 6 cfg1.N = rowScaled (V c main_v37) (V c main_arg3) :=
  (dat1 V c).arrAt_eq_of_cover 6 _ (fun t _ => flushed6_eq V c t) cover6

end Cert.KernelIdeal.NodeValue

end
-- ==== Proof.Glue.lean ====
/-
  The contents of the buffers at the boundaries of the kernel program's segments, down to the launch memory: what the first
  region finds in the arrays its windows stage (the padded review features, the padded gathered coefficients and embeddings,
  the weights), what the second region finds (the segment sums of the first region's sliced results, the coefficient column),
  and with them the three result arrays as functions of the arguments.
-/
import proofs.«157525_j69131793596496_1_alg».proof.Proof.Gen.KernelIdeal.Frame
import proofs.«157525_j69131793596496_1_alg».proof.Proof.HostTerms
import proofs.«157525_j69131793596496_1_alg».proof.Proof.EdgeWin6
import proofs.«157525_j69131793596496_1_alg».proof.Proof.EdgeWin7
import proofs.«157525_j69131793596496_1_alg».proof.Proof.EdgeWin8
import proofs.«157525_j69131793596496_1_alg».proof.Proof.NodeWin4
import proofs.«157525_j69131793596496_1_alg».proof.Proof.NodeWin5
import proofs.«157525_j69131793596496_1_alg».proof.Proof.NodeWin6
import Idealize.ShloMosaic.Lib.StableHlo.Run

set_option maxRecDepth 16384

noncomputable section

namespace Cert.KernelIdeal.Glue

open Idealize.ShloMosaic Idealize.ShloMosaic.TcCoe Idealize.ShloMosaic.StableHlo
open Idealize.SL Idealize.SL.Sem
open Cert.KernelIdeal Cert.KernelIdeal.Gen Cert.KernelIdeal.HostTerms
open Cert.KernelIdeal.EdgeValue Cert.KernelIdeal.NodeValue

variable (m : (ℓ : Loc nD τ sig) → Buf (Elt Ideal) ℓ) (ρ : Dev nD → PrngReg)

/-! ## What the first region finds -/

theorem V8_v21 (c : Dev nD) : V8 m ρ c main_v21 = padRows (m ((c : Thread nD τ).loc main_arg2)) := by
  show StableHlo.after hostOps0_7 (StableHlo.after hostOps0_6 (StableHlo.after hostOps0_5 (StableHlo.after hostOps0_4 (StableHlo.after hostOps0_3 (StableHlo.after hostOps0_2 (StableHlo.after hostOps0_1 (StableHlo.after hostOps0 (W0 m ρ c)))))))) (Proc.devRef .tc main_v21) = _
  simp only [hostOps0, hostOps0_1, hostOps0_2, hostOps0_3, hostOps0_4, hostOps0_5, hostOps0_6, hostOps0_7]
  after_results_simp
  rfl

theorem V8_v22 (c : Dev nD) : V8 m ρ c main_v22 = padCol (srcCoef (m ((c : Thread nD τ).loc main_arg3)) (m ((c : Thread nD τ).loc main_arg0))) := by
  show StableHlo.after hostOps0_7 (StableHlo.after hostOps0_6 (StableHlo.after hostOps0_5 (StableHlo.after hostOps0_4 (StableHlo.after hostOps0_3 (StableHlo.after hostOps0_2 (StableHlo.after hostOps0_1 (StableHlo.after hostOps0 (W0 m ρ c)))))))) (Proc.devRef .tc main_v22) = _
  simp only [hostOps0, hostOps0_1, hostOps0_2, hostOps0_3, hostOps0_4, hostOps0_5, hostOps0_6, hostOps0_7]
  after_results_simp
  rfl

theorem V8_v23 (c : Dev nD) : V8 m ρ c main_v23 = padRows (srcRows (m ((c : Thread nD τ).loc main_arg7)) (m ((c : Thread nD τ).loc main_arg0))) := by
  show StableHlo.after hostOps0_7 (StableHlo.after hostOps0_6 (StableHlo.after hostOps0_5 (StableHlo.after hostOps0_4 (StableHlo.after hostOps0_3 (StableHlo.after hostOps0_2 (StableHlo.after hostOps0_1 (StableHlo.after hostOps0 (W0 m ρ c)))))))) (Proc.devRef .tc main_v23) = _
  simp only [hostOps0, hostOps0_1, hostOps0_2, hostOps0_3, hostOps0_4, hostOps0_5, hostOps0_6, hostOps0_7]
  after_results_simp
  rfl

theorem V8_v24 (c : Dev nD) : V8 m ρ c main_v24 = padRows (srcRows (m ((c : Thread nD τ).loc main_arg8)) (m ((c : Thread nD τ).loc main_arg0))) := by
  show StableHlo.after hostOps0_7 (StableHlo.after hostOps0_6 (StableHlo.after hostOps0_5 (StableHlo.after hostOps0_4 (StableHlo.after hostOps0_3 (StableHlo.after hostOps0_2 (StableHlo.after hostOps0_1 (StableHlo.after hostOps0 (W0 m ρ c)))))))) (Proc.devRef .tc main_v24) = _
  simp only [hostOps0, hostOps0_1, hostOps0_2, hostOps0_3, hostOps0_4, hostOps0_5, hostOps0_6, hostOps0_7]
  after_results_simp
  rfl

/-- A buffer no host operation before the first region writes is as launched. -/
theorem W8_arg (c : Dev nD) (b : Ref sig .tc)
    (hb : b = main_arg1 ∨ b = main_arg3 ∨ b = main_arg5 ∨ b = main_arg6) :
    W8 m ρ c (Proc.devRef .tc b) = m ((c : Thread nD τ).loc b) := by
  show StableHlo.after hostOps0_7 (StableHlo.after hostOps0_6 (StableHlo.after hostOps0_5 (StableHlo.after hostOps0_4 (StableHlo.after hostOps0_3 (StableHlo.after hostOps0_2 (StableHlo.after hostOps0_1 (StableHlo.after hostOps0 (W0 m ρ c)))))))) (Proc.devRef .tc b) = _
  rcases hb with rfl | rfl | rfl | rfl <;>
  · simp only [hostOps0, hostOps0_1, hostOps0_2, hostOps0_3, hostOps0_4, hostOps0_5, hostOps0_6, hostOps0_7]
    after_results_simp

/-! ## What the first region leaves, and what the second finds -/

theorem W9_v25_0 (c : Dev nD) : W9 m ρ c (Proc.devRef .tc main_v25_0)
    = linMsg (padRows (m ((c : Thread nD τ).loc main_arg2))) (padCol (srcCoef (m ((c : Thread nD τ).loc main_arg3)) (m ((c : Thread nD τ).loc main_arg0))))
        (m ((c : Thread nD τ).loc main_arg5)) := by
  refine (W9_arr m ρ c 6).trans ((EdgeValue.final6 (V8 m ρ) c).trans ?_)
  rw [V8_v21, V8_v22]
  exact congrArg _ (W8_arg m ρ c main_arg5 (by simp))

theorem W9_v25_1 (c : Dev nD) : W9 m ρ c (Proc.devRef .tc main_v25_1)
    = affMsg (padRows (m ((c : Thread nD τ).loc main_arg2))) (padCol (srcCoef (m ((c : Thread nD τ).loc main_arg3)) (m ((c : Thread nD τ).loc main_arg0))))
        (padRows (srcRows (m ((c : Thread nD τ).loc main_arg7)) (m ((c : Thread nD τ).loc main_arg0)))) (m ((c : Thread nD τ).loc main_arg6)) := by
  refine (W9_arr m ρ c 7).trans ((EdgeValue.final7 (V8 m ρ) c).trans ?_)
  rw [V8_v21, V8_v22, V8_v23]
  exact congrArg _ (W8_arg m ρ c main_arg6 (by simp))

theorem W9_v25_2 (c : Dev nD) : W9 m ρ c (Proc.devRef .tc main_v25_2)
    = embMsg (padCol (srcCoef (m ((c : Thread nD τ).loc main_arg3)) (m ((c : Thread nD τ).loc main_arg0))))
        (padRows (srcRows (m ((c : Thread nD τ).loc main_arg8)) (m ((c : Thread nD τ).loc main_arg0)))) := by
  refine (W9_arr m ρ c 8).trans ((EdgeValue.final8 (V8 m ρ) c).trans ?_)
  rw [V8_v22, V8_v24]

theorem W9_arg1 (c : Dev nD) : W9 m ρ c (Proc.devRef .tc main_arg1) = m ((c : Thread nD τ).loc main_arg1) :=
  (W9_of_ne m ρ c main_arg1 (by decide)).trans (W8_arg m ρ c main_arg1 (by simp))

theorem W9_arg3 (c : Dev nD) : W9 m ρ c (Proc.devRef .tc main_arg3) = m ((c : Thread nD τ).loc main_arg3) :=
  (W9_of_ne m ρ c main_arg3 (by decide)).trans (W8_arg m ρ c main_arg3 (by simp))

theorem V10_v31 (c : Dev nD) : V10 m ρ c main_v31 = segSum (m ((c : Thread nD τ).loc main_arg1)) (firstRows (W9 m ρ c (Proc.devRef .tc main_v25_0))) := by
  show StableHlo.after hostOps1 (W9 m ρ c) (Proc.devRef .tc main_v31) = _
  simp only [hostOps1]
  after_results_simp
  rw [W9_arg1]
  rfl

theorem V10_v34 (c : Dev nD) : V10 m ρ c main_v34 = segSum (m ((c : Thread nD τ).loc main_arg1)) (firstRows (W9 m ρ c (Proc.devRef .tc main_v25_1))) := by
  show StableHlo.after hostOps1 (W9 m ρ c) (Proc.devRef .tc main_v34) = _
  simp only [hostOps1]
  after_results_simp
  rw [W9_arg1]
  rfl

theorem V10_v37 (c : Dev nD) : V10 m ρ c main_v37 = segSum (m ((c : Thread nD τ).loc main_arg1)) (firstRows (W9 m ρ c (Proc.devRef .tc main_v25_2))) := by
  show StableHlo.after hostOps1 (W9 m ρ c) (Proc.devRef .tc main_v37) = _
  simp only [hostOps1]
  after_results_simp
  rw [W9_arg1]
  rfl

theorem V10_arg3 (c : Dev nD) : V10 m ρ c main_arg3 = m ((c : Thread nD τ).loc main_arg3) := by
  show StableHlo.after hostOps1 (W9 m ρ c) (Proc.devRef .tc main_arg3) = _
  simp only [hostOps1]
  after_results_simp
  exact W9_arg3 m ρ c

/-! ## The three results -/

/-- The second region's second output (the program's first result): the segment sum of the affine messages, each row
    scaled by its node's coefficient. -/
theorem result_aff (c : Dev nD) : W11 m ρ c (Proc.devRef .tc main_v38_1)
    = rowScaled (segSum (m ((c : Thread nD τ).loc main_arg1)) (firstRows
        (affMsg (padRows (m ((c : Thread nD τ).loc main_arg2))) (padCol (srcCoef (m ((c : Thread nD τ).loc main_arg3)) (m ((c : Thread nD τ).loc main_arg0))))
          (padRows (srcRows (m ((c : Thread nD τ).loc main_arg7)) (m ((c : Thread nD τ).loc main_arg0)))) (m ((c : Thread nD τ).loc main_arg6)))))
      (m ((c : Thread nD τ).loc main_arg3)) := by
  refine (W11_arr m ρ c 5).trans ((NodeValue.final5 (V10 m ρ) c).trans ?_)
  rw [V10_v34, V10_arg3, W9_v25_1]

/-- The second region's first output (the program's second result): the segment sum of the linear messages, rows scaled. -/
theorem result_lin (c : Dev nD) : W11 m ρ c (Proc.devRef .tc main_v38_0)
    = rowScaled (segSum (m ((c : Thread nD τ).loc main_arg1)) (firstRows
        (linMsg (padRows (m ((c : Thread nD τ).loc main_arg2))) (padCol (srcCoef (m ((c : Thread nD τ).loc main_arg3)) (m ((c : Thread nD τ).loc main_arg0))))
          (m ((c : Thread nD τ).loc main_arg5)))))
      (m ((c : Thread nD τ).loc main_arg3)) := by
  refine (W11_arr m ρ c 4).trans ((NodeValue.final4 (V10 m ρ) c).trans ?_)
  rw [V10_v31, V10_arg3, W9_v25_0]

/-- The second region's third output (the program's third result): the segment sum of the embedding messages, rows scaled. -/
theorem result_emb (c : Dev nD) : W11 m ρ c (Proc.devRef .tc main_v38_2)
    = rowScaled (segSum (m ((c : Thread nD τ).loc main_arg1)) (firstRows
        (embMsg (padCol (srcCoef (m ((c : Thread nD τ).loc main_arg3)) (m ((c : Thread nD τ).loc main_arg0))))
          (padRows (srcRows (m ((c : Thread nD τ).loc main_arg8)) (m ((c : Thread nD τ).loc main_arg0)))))))
      (m ((c : Thread nD τ).loc main_arg3)) := by
  refine (W11_arr m ρ c 6).trans ((NodeValue.final6 (V10 m ρ) c).trans ?_)
  rw [V10_v37, V10_arg3, W9_v25_2]

end Cert.KernelIdeal.Glue

end
-- ==== Proof.Bridge.lean ====
/-
  The two programs' arrays are the same functions. On the first E = 1000000 rows the zero padding returns the padded array's
  entries and the slice reads the padded result back, so the first E rows of each message array over the padded inputs are
  the reference's message arrays: the product of the review features with a transposed weight matrix is, on both sides, the sum
  over the shared axis  ∑ q, x (e, q) · w (v, q)  (the order of a finite sum of extended reals does not matter), and the
  broadcast of the coefficient column along the lanes reads  c (e, 0). Likewise a row-scaled array is the reference's product
  with the coefficient column broadcast along the lanes. No distributive law is used: the two sides are the same expression.
-/
import proofs.«157525_j69131793596496_1_alg».proof.Proof.EdgeBase
import proofs.«157525_j69131793596496_1_alg».proof.Proof.NodeBase
import proofs.«157525_j69131793596496_1_alg».proof.Proof.HostTerms
import proofs.«157525_j69131793596496_1_alg».proof.ReferenceIdeal
import proofs.«157525_j69131793596496_1_alg».proof.Proof.Gen.ReferenceIdeal
import Idealize.ShloMosaic.Lib.KernelVsHost

set_option maxRecDepth 16384

noncomputable section

open scoped BigOperators

namespace Cert.Bridge

open Idealize.ShloMosaic Idealize.ShloMosaic.ValueIdx
open Cert.KernelIdeal Cert.KernelIdeal.Facts₀ Cert.KernelIdeal.Facts
open Cert.KernelIdeal.HostTerms Cert.KernelIdeal.EdgeValue Cert.KernelIdeal.NodeValue Cert.Lib.DotRowsCols

/-- Row `e < E` as a row of the padded axis. -/
def up (e : Fin 1000000) : Fin 1001472 := ⟨e.val, by have := e.isLt; omega⟩

/-! ## The layout operations at an entry -/

theorem firstRows_apply (y : S1001472x64.Idx → EReal) (e : Fin 1000000) (v : Fin 64) :
    firstRows y (ix2 e v) = y (ix2 (up e) v) := by
  unfold firstRows
  exact extractStridedSlice_apply ![0, 0] y slices_S1001472x64_S1000000x64_0_0 (ix2 e v) (ix2 (up e) v) (fun a => by
    match a with
    | ⟨0, _⟩ => show e.val = 0 + e.val; omega
    | ⟨1, _⟩ => show v.val = 0 + v.val; omega)

theorem padRows_apply (x : S1000000x64.Idx → EReal) (e : Fin 1000000) (v : Fin 64) :
    padRows x (ix2 (up e) v) = x (ix2 e v) := by
  unfold padRows
  exact pad_apply_of_inside ![0, 0] ![1472, 0] ![0, 0] x padVal pads_S1000000x64_S1001472x64_014720_000 h_S_ (ix2 (up e) v) (ix2 e v) (fun a => by
    match a with
    | ⟨0, _⟩ => show e.val = 0 + e.val * (0 + 1); omega
    | ⟨1, _⟩ => show v.val = 0 + v.val * (0 + 1); omega)

theorem padCol_apply (c : S1000000x1.Idx → EReal) (e : Fin 1000000) :
    padCol c (ix2 (up e) (0 : Fin 1)) = c (ix2 e (0 : Fin 1)) := by
  unfold padCol
  exact pad_apply_of_inside ![0, 0] ![1472, 0] ![0, 0] c padVal pads_S1000000x1_S1001472x1_014720_000 h_S_ (ix2 (up e) (0 : Fin 1)) (ix2 e (0 : Fin 1)) (fun a => by
    match a with
    | ⟨0, _⟩ => show e.val = 0 + e.val * (0 + 1); omega
    | ⟨1, _⟩ => show 0 = 0 + 0 * (0 + 1); omega)

/-- An [n, 1] column broadcast along 64 lanes (both axes kept in place) reads, at (p, v), the column's entry of row p. -/
theorem colBcast_apply {n : Nat} (c : (⟨2, ![n, 1]⟩ : Shape).Idx → EReal)
    (h : (⟨2, ![n, 1]⟩ : Shape).BroadcastsInDim ⟨2, ![n, 64]⟩ (![0, 1] : Fin 2 → Fin 2)) (p : Fin n) (v : Fin 64) :
    broadcastInDim ⟨2, ![n, 64]⟩ ![0, 1] h c (ix2 p v) = c (ix2 p (0 : Fin 1)) :=
  broadcastInDim_apply ![0, 1] h c (ix2 p v) (ix2 p (0 : Fin 1)) (fun a => by
    match a with
    | ⟨0, _⟩ =>
      show p.val = if n = 1 then 0 else p.val
      split
      · have := p.isLt; omega
      · rfl
    | ⟨1, _⟩ => rfl)

/-- The reference's product contracts the features' lanes with the transposed matrix's rows. -/
theorem refDims_rowsCols : RowsCols (n := 1000000) (K := 64) (c := 64) Cert.ReferenceIdeal.dot_S1000000x64_S64x64_S1000000x64_1_0_0_1_n_n :=
  ⟨rfl, rfl, rfl, rfl, rfl, rfl⟩

/-- The reference's features times a transposed weight matrix at (e, v):  ∑ q, x (e, q) · w (v, q). -/
theorem refProd_apply (x : S1000000x64.Idx → EReal) (w : S64x64.Idx → EReal) (e : Fin 1000000) (v : Fin 64) :
    Host.dotGeneral (F := Ideal) (φ₁ := .f32) (φ₂ := .f32) Cert.ReferenceIdeal.dot_S1000000x64_S64x64_S1000000x64_1_0_0_1_n_n none x
        (transpose S64x64 [1, 0] w Cert.ReferenceIdeal.Facts₀.transposes_S64x64_S64x64_1_0) (ix2 e v)
      = ∑ q : Fin 64, x (ix2 e q) * w (ix2 v q) := by
  refine (refDims_rowsCols.dotGeneral_apply none _ _ (ix2 e v)).trans ?_
  refine Finset.sum_congr rfl fun q _ => ?_
  show x (ix2 e q) * transpose S64x64 [1, 0] w Cert.ReferenceIdeal.Facts₀.transposes_S64x64_S64x64_1_0 (ix2 q v) = _
  rw [transpose_sq_apply]

/-! ## The message arrays -/

theorem lin_eq (x : S1000000x64.Idx → EReal) (c : S1000000x1.Idx → EReal) (w : S64x64.Idx → EReal) :
    firstRows (linMsg (padRows x) (padCol c) w)
      = mulf (F := Ideal) (φ := .f32)
          (Host.dotGeneral (F := Ideal) (φ₁ := .f32) (φ₂ := .f32) Cert.ReferenceIdeal.dot_S1000000x64_S64x64_S1000000x64_1_0_0_1_n_n none x
            (transpose S64x64 [1, 0] w Cert.ReferenceIdeal.Facts₀.transposes_S64x64_S64x64_1_0))
          (broadcastInDim S1000000x64 ![0, 1] Cert.ReferenceIdeal.Facts₀.bcast_S1000000x1_S1000000x64_0_1 c) := by
  funext i
  obtain ⟨e, v, rfl⟩ : ∃ (e : Fin 1000000) (v : Fin 64), i = ix2 e v := ⟨i 0, i 1, eq_ix2 i⟩
  rw [firstRows_apply, mulf_apply, refProd_apply, colBcast_apply]
  show (∑ q : Fin 64, padRows x (ix2 (up e) q) * w (ix2 v q)) * padCol c (ix2 (up e) (0 : Fin 1)) = _
  rw [padCol_apply]
  refine congrArg (· * _) (Finset.sum_congr rfl fun q _ => ?_)
  rw [padRows_apply]

theorem aff_eq (x : S1000000x64.Idx → EReal) (c : S1000000x1.Idx → EReal) (f : S1000000x64.Idx → EReal) (w : S64x64.Idx → EReal) :
    firstRows (affMsg (padRows x) (padCol c) (padRows f) w)
      = mulf (F := Ideal) (φ := .f32)
          (addf (F := Ideal) (φ := .f32) f
            (Host.dotGeneral (F := Ideal) (φ₁ := .f32) (φ₂ := .f32) Cert.ReferenceIdeal.dot_S1000000x64_S64x64_S1000000x64_1_0_0_1_n_n none x
              (transpose S64x64 [1, 0] w Cert.ReferenceIdeal.Facts₀.transposes_S64x64_S64x64_1_0)))
          (broadcastInDim S1000000x64 ![0, 1] Cert.ReferenceIdeal.Facts₀.bcast_S1000000x1_S1000000x64_0_1 c) := by
  funext i
  obtain ⟨e, v, rfl⟩ : ∃ (e : Fin 1000000) (v : Fin 64), i = ix2 e v := ⟨i 0, i 1, eq_ix2 i⟩
  rw [firstRows_apply, mulf_apply, addf_apply, refProd_apply, colBcast_apply]
  show (padRows f (ix2 (up e) v) + ∑ q : Fin 64, padRows x (ix2 (up e) q) * w (ix2 v q)) * padCol c (ix2 (up e) (0 : Fin 1)) = _
  rw [padCol_apply, padRows_apply]
  refine congrArg (fun s => (f (ix2 e v) + s) * _) (Finset.sum_congr rfl fun q _ => ?_)
  rw [padRows_apply]

theorem emb_eq (c : S1000000x1.Idx → EReal) (f : S1000000x64.Idx → EReal) :
    firstRows (embMsg (padCol c) (padRows f))
      = mulf (F := Ideal) (φ := .f32) f
          (broadcastInDim S1000000x64 ![0, 1] Cert.ReferenceIdeal.Facts₀.bcast_S1000000x1_S1000000x64_0_1 c) := by
  funext i
  obtain ⟨e, v, rfl⟩ : ∃ (e : Fin 1000000) (v : Fin 64), i = ix2 e v := ⟨i 0, i 1, eq_ix2 i⟩
  rw [firstRows_apply, mulf_apply, colBcast_apply]
  show padRows f (ix2 (up e) v) * padCol c (ix2 (up e) (0 : Fin 1)) = _
  rw [padCol_apply, padRows_apply]

/-- A row-scaled array is the product with the coefficient column broadcast along the lanes. -/
theorem rowScaled_eq (h : S200000x64.Idx → EReal) (ci : S200000x1.Idx → EReal) :
    rowScaled h ci = mulf (F := Ideal) (φ := .f32) h
      (broadcastInDim S200000x64 ![0, 1] Cert.ReferenceIdeal.Facts₀.bcast_S200000x1_S200000x64_0_1 ci) := by
  funext i
  obtain ⟨n, v, rfl⟩ : ∃ (n : Fin 200000) (v : Fin 64), i = ix2 n v := ⟨i 0, i 1, eq_ix2 i⟩
  rw [mulf_apply, colBcast_apply]
  rfl

end Cert.Bridge

end
-- ==== Proof.lean ====
/-
  The certificate of a two-kernel message-passing layer against its jnp reference, over the extended reals.

  Both programs gather, for each of E = 1000000 edges, the source node's coefficient c (an [E, 1] column) and two embedding rows,
  form three [E, 64] message arrays
      (x · W₁ᵀ) ⊙ c,      (f₂ + x · W₂ᵀ) ⊙ c,      f₃ ⊙ c
  (x the edge's review features, ⊙ c the product of each row with its coefficient), sum the messages into the rows their
  destination indices name, and scale every row of the three sums by its node's coefficient. The kernel program computes the
  messages in a first kernel region, 2048 edges a grid point, on arrays padded with zero rows to 489 · 2048 rows and sliced
  back before the sums, with the weights and features rounded to bf16 (at the exact instance a change of format is the
  identity) and the product taken into a zero accumulator; and scales the rows in a second kernel region, 2000 nodes a grid point.
  The two sides are the same expression entry by entry, so no hypothesis on the inputs is used: the first E rows of the
  padded results are the reference's messages (Proof/Bridge.lean), the sums are the same host operation of equal operands,
  and the row scaling is the reference's product with the broadcast coefficient column.
  The frames of the two kernel programs are the generated ones; the reference's is its generated run with the results dropped.
-/
import proofs.«157525_j69131793596496_1_alg».proof.Defs
import proofs.«157525_j69131793596496_1_alg».proof.Proof.Gen.Kernel
import proofs.«157525_j69131793596496_1_alg».proof.Proof.Gen.Kernel.Frame
import proofs.«157525_j69131793596496_1_alg».proof.Proof.Gen.KernelIdeal
import proofs.«157525_j69131793596496_1_alg».proof.Proof.Gen.KernelIdeal.Frame
import proofs.«157525_j69131793596496_1_alg».proof.Proof.Gen.ReferenceIdeal
import proofs.«157525_j69131793596496_1_alg».proof.Proof.Gen.ReferenceIdeal.Run
import proofs.«157525_j69131793596496_1_alg».proof.Proof.Gen.Pre_finite_inputs
import proofs.«157525_j69131793596496_1_alg».proof.Proof.KernelRun
import proofs.«157525_j69131793596496_1_alg».proof.Proof.Glue
import proofs.«157525_j69131793596496_1_alg».proof.Proof.Bridge
import Idealize.ShloMosaic.Adequacy
import Idealize.ShloMosaic.Init

set_option maxRecDepth 16384

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2.2.2) (Cert.ReferenceIdeal.Value.run (F := Ideal) m ρ)

/-- The ideal pass rewrote nothing. -/
theorem preserves : Cert.preserves_Kernel_KernelIdeal := trivial

/-- From memories that agree on the arguments both programs run, and each of the three results is the same array: the
    kernel program's, read off its two regions and the host operations between them, and the reference's composed term. -/
theorem algebraic : Cert.algebraic_KernelIdeal_ReferenceIdeal := by
  intro m ρ m' ρ' _ hagree
  refine ⟨fun c => Cert.KernelIdeal.Gen.W11 m ρ c (Proc.devRef .tc Cert.KernelIdeal.main_v38_1),
    fun c => Cert.KernelIdeal.Gen.W11 m ρ c (Proc.devRef .tc Cert.KernelIdeal.main_v38_0),
    fun c => Cert.KernelIdeal.Gen.W11 m ρ c (Proc.devRef .tc Cert.KernelIdeal.main_v38_2),
    Cert.KernelIdeal.Gen.run_named m ρ, ?_⟩
  refine (θ_run Cert.ReferenceIdeal.defs _ _).mono (fun r h c => ?_) (Cert.ReferenceIdeal.Value.run (F := Ideal) m' ρ')
  obtain ⟨h32, h15, h46, hargs⟩ := h c
  obtain ⟨e0, e1, e2, e3, e4, e5, e6, e7, e8⟩ := hagree c
  refine ⟨h32.trans ?_, h15.trans ?_, h46.trans ?_, hargs⟩
  · rw [e0, e1, e2, e3, e6, e7]
    refine Eq.trans ?_ (Cert.KernelIdeal.Glue.result_aff m ρ c).symm
    rw [Cert.Bridge.rowScaled_eq, Cert.Bridge.aff_eq]
    rfl
  · rw [e0, e1, e2, e3, e5]
    refine Eq.trans ?_ (Cert.KernelIdeal.Glue.result_lin m ρ c).symm
    rw [Cert.Bridge.rowScaled_eq, Cert.Bridge.lin_eq]
    rfl
  · rw [e0, e1, e3, e8]
    refine Eq.trans ?_ (Cert.KernelIdeal.Glue.result_emb m ρ c).symm
    rw [Cert.Bridge.rowScaled_eq, Cert.Bridge.emb_eq]
    rfl

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
